-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x100000 : Shape := ⟨3, ![8, 64, 100000]⟩
abbrev S8x3x100000 : Shape := ⟨3, ![8, 3, 100000]⟩
abbrev S_ : Shape := ⟨0, ![]⟩

class Facts : Prop where
  bcast_S_S8x64x100000 : S_.BroadcastsInDim S8x64x100000 (![] : Fin 0 → Fin S8x64x100000.rank)
  reducesTo_S8x64x100000_S_d0_1_2 : S8x64x100000.ReducesTo [0, 1, 2] S_
  h_S_ : 0 < S_.numel
  bcast_S_S8x3x100000 : S_.BroadcastsInDim S8x3x100000 (![] : Fin 0 → Fin S8x3x100000.rank)
  reducesTo_S8x3x100000_S_d0_1_2 : S8x3x100000.ReducesTo [0, 1, 2] S_

variable [Facts]

def fn {F : FTy → Type} [FloatOps F] (main_arg0 : FVec F S8x64x100000 .f32) (main_arg1 : FVec F S8x3x100000 .f32) : IVec S_ 1 :=
  let main_v0 : FVec F S8x64x100000 .f32 := Host.absf main_arg0
  let main_cst : FVec F S_ .f32 := constant S_ .f32 0x7F800000#32
  let main_v1 : FVec F S8x64x100000 .f32 := broadcastInDim S8x64x100000 ![] bcast_S_S8x64x100000 main_cst
  let main_v2 : IVec S8x64x100000 1 := cmpf .olt main_v0 main_v1
  let main_c : IVec S_ 1 := constantI S_ 1 1#1
  let main_v3 : IVec S_ 1 := (fun x v => Host.reduce IntOp.andi x v reducesTo_S8x64x100000_S_d0_1_2 h_S_) main_v2 main_c
  let main_v4 : FVec F S8x3x100000 .f32 := Host.absf main_arg1
  let main_cst_0 : FVec F S_ .f32 := constant S_ .f32 0x7F800000#32
  let main_v5 : FVec F S8x3x100000 .f32 := broadcastInDim S8x3x100000 ![] bcast_S_S8x3x100000 main_cst_0
  let main_v6 : IVec S8x3x100000 1 := cmpf .olt main_v4 main_v5
  let main_c_1 : IVec S_ 1 := constantI S_ 1 1#1
  let main_v7 : IVec S_ 1 := (fun x v => Host.reduce IntOp.andi x v reducesTo_S8x3x100000_S_d0_1_2 h_S_) main_v6 main_c_1
  let main_v8 : IVec S_ 1 := andi main_v3 main_v7
  main_v8
-- ==== Kernel.lean ====
abbrev S8x64x100000 : Shape := ⟨3, ![8, 64, 100000]⟩
abbrev S8x3x100000 : Shape := ⟨3, ![8, 3, 100000]⟩
abbrev S_ : Shape := ⟨0, ![]⟩
abbrev S8x3 : Shape := ⟨2, ![8, 3]⟩
abbrev S8x3x1 : Shape := ⟨3, ![8, 3, 1]⟩
abbrev S8x100000 : Shape := ⟨2, ![8, 100000]⟩
abbrev S8x1x100000 : Shape := ⟨3, ![8, 1, 100000]⟩
abbrev S8x1 : Shape := ⟨2, ![8, 1]⟩
abbrev S8x1x1 : Shape := ⟨3, ![8, 1, 1]⟩
abbrev S8x102400 : Shape := ⟨2, ![8, 102400]⟩
abbrev S8x1x102400 : Shape := ⟨3, ![8, 1, 102400]⟩
abbrev S8x64x102400 : Shape := ⟨3, ![8, 64, 102400]⟩
abbrev S8x32768x64 : Shape := ⟨3, ![8, 32768, 64]⟩
abbrev S1x1x4096 : Shape := ⟨3, ![1, 1, 4096]⟩
abbrev S1x64x4096 : Shape := ⟨3, ![1, 64, 4096]⟩
abbrev S1x2048x64 : Shape := ⟨3, ![1, 2048, 64]⟩
abbrev S2048x64 : Shape := ⟨2, ![2048, 64]⟩
abbrev S2048x1 : Shape := ⟨2, ![2048, 1]⟩
abbrev S1x4096 : Shape := ⟨2, ![1, 4096]⟩
abbrev S2048x4096 : Shape := ⟨2, ![2048, 4096]⟩
abbrev S64x4096 : Shape := ⟨2, ![64, 4096]⟩
abbrev S65x4096 : Shape := ⟨2, ![65, 4096]⟩
abbrev S2048x65 : Shape := ⟨2, ![2048, 65]⟩
abbrev S8x32x32x32x64 : Shape := ⟨5, ![8, 32, 32, 32, 64]⟩
abbrev S8x64x32x32x32 : Shape := ⟨5, ![8, 64, 32, 32, 32]⟩

abbrev nBuf : Space → Nat
  | .hbm => 67
  | .vmem => 8
  | .smem => 0
  | _ => 0

abbrev bufTy : (tb : Table) → Fin (tcTables nBuf tb) → BufTy
  | .hbm, ⟨0, _⟩ => ⟨S8x64x100000, .f32⟩
  | .hbm, ⟨1, _⟩ => ⟨S8x3x100000, .f32⟩
  | .hbm, ⟨2, _⟩ => ⟨S_, .f32⟩
  | .hbm, ⟨3, _⟩ => ⟨S8x3, .f32⟩
  | .hbm, ⟨4, _⟩ => ⟨S8x3x1, .f32⟩
  | .hbm, ⟨5, _⟩ => ⟨S_, .f32⟩
  | .hbm, ⟨6, _⟩ => ⟨S8x3x1, .f32⟩
  | .hbm, ⟨7, _⟩ => ⟨S8x3x1, .f32⟩
  | .hbm, ⟨8, _⟩ => ⟨S8x3x100000, .f32⟩
  | .hbm, ⟨9, _⟩ => ⟨S8x3x100000, .f32⟩
  | .hbm, ⟨10, _⟩ => ⟨S8x3x100000, .f32⟩
  | .hbm, ⟨11, _⟩ => ⟨S_, .f32⟩
  | .hbm, ⟨12, _⟩ => ⟨S8x100000, .f32⟩
  | .hbm, ⟨13, _⟩ => ⟨S8x1x100000, .f32⟩
  | .hbm, ⟨14, _⟩ => ⟨S8x1x100000, .f32⟩
  | .hbm, ⟨15, _⟩ => ⟨S_, .f32⟩
  | .hbm, ⟨16, _⟩ => ⟨S8x1, .f32⟩
  | .hbm, ⟨17, _⟩ => ⟨S8x1x1, .f32⟩
  | .hbm, ⟨18, _⟩ => ⟨S_, .f32⟩
  | .hbm, ⟨19, _⟩ => ⟨S8x1x1, .f32⟩
  | .hbm, ⟨20, _⟩ => ⟨S8x1x1, .f32⟩
  | .hbm, ⟨21, _⟩ => ⟨S_, .f32⟩
  | .hbm, ⟨22, _⟩ => ⟨S8x1x1, .f32⟩
  | .hbm, ⟨23, _⟩ => ⟨S8x1x1, .f32⟩
  | .hbm, ⟨24, _⟩ => ⟨S8x3x100000, .f32⟩
  | .hbm, ⟨25, _⟩ => ⟨S8x3x100000, .f32⟩
  | .hbm, ⟨26, _⟩ => ⟨S_, .f32⟩
  | .hbm, ⟨27, _⟩ => ⟨S8x3x100000, .f32⟩
  | .hbm, ⟨28, _⟩ => ⟨S8x3x100000, .f32⟩
  | .hbm, ⟨29, _⟩ => ⟨S_, .f32⟩
  | .hbm, ⟨30, _⟩ => ⟨S8x3x100000, .f32⟩
  | .hbm, ⟨31, _⟩ => ⟨S8x3x100000, .f32⟩
  | .hbm, ⟨32, _⟩ => ⟨S_, .f32⟩
  | .hbm, ⟨33, _⟩ => ⟨S_, .i32⟩
  | .hbm, ⟨34, _⟩ => ⟨S_, .f32⟩
  | .hbm, ⟨35, _⟩ => ⟨S8x3x100000, .f32⟩
  | .hbm, ⟨36, _⟩ => ⟨S8x3x100000, .f32⟩
  | .hbm, ⟨37, _⟩ => ⟨S_, .f32⟩
  | .hbm, ⟨38, _⟩ => ⟨S8x3x100000, .f32⟩
  | .hbm, ⟨39, _⟩ => ⟨S8x3x100000, .f32⟩
  | .hbm, ⟨40, _⟩ => ⟨S8x3x100000, .f32⟩
  | .hbm, ⟨41, _⟩ => ⟨S8x3x100000, .i32⟩
  | .hbm, ⟨42, _⟩ => ⟨S8x1x100000, .i32⟩
  | .hbm, ⟨43, _⟩ => ⟨S8x100000, .i32⟩
  | .hbm, ⟨44, _⟩ => ⟨S_, .i32⟩
  | .hbm, ⟨45, _⟩ => ⟨S8x100000, .i32⟩
  | .hbm, ⟨46, _⟩ => ⟨S8x100000, .i32⟩
  | .hbm, ⟨47, _⟩ => ⟨S8x1x100000, .i32⟩
  | .hbm, ⟨48, _⟩ => ⟨S8x100000, .i32⟩
  | .hbm, ⟨49, _⟩ => ⟨S8x100000, .i32⟩
  | .hbm, ⟨50, _⟩ => ⟨S_, .i32⟩
  | .hbm, ⟨51, _⟩ => ⟨S8x100000, .i32⟩
  | .hbm, ⟨52, _⟩ => ⟨S8x100000, .i32⟩
  | .hbm, ⟨53, _⟩ => ⟨S8x1x100000, .i32⟩
  | .hbm, ⟨54, _⟩ => ⟨S8x100000, .i32⟩
  | .hbm, ⟨55, _⟩ => ⟨S8x100000, .i32⟩
  | .hbm, ⟨56, _⟩ => ⟨S_, .i32⟩
  | .hbm, ⟨57, _⟩ => ⟨S_, .i32⟩
  | .hbm, ⟨58, _⟩ => ⟨S8x102400, .i32⟩
  | .hbm, ⟨59, _⟩ => ⟨S8x1x102400, .i32⟩
  | .hbm, ⟨60, _⟩ => ⟨S8x64x100000, .bf16⟩
  | .hbm, ⟨61, _⟩ => ⟨S_, .i32⟩
  | .hbm, ⟨62, _⟩ => ⟨S_, .bf16⟩
  | .hbm, ⟨63, _⟩ => ⟨S8x64x102400, .bf16⟩
  | .hbm, ⟨64, _⟩ => ⟨S8x32768x64, .f32⟩
  | .hbm, ⟨65, _⟩ => ⟨S8x32x32x32x64, .f32⟩
  | .hbm, ⟨66, _⟩ => ⟨S8x64x32x32x32, .f32⟩
  | .local _ .vmem, ⟨0, _⟩ => ⟨S1x1x4096, .i32⟩
  | .local _ .vmem, ⟨1, _⟩ => ⟨S1x1x4096, .i32⟩
  | .local _ .vmem, ⟨2, _⟩ => ⟨S1x64x4096, .bf16⟩
  | .local _ .vmem, ⟨3, _⟩ => ⟨S1x64x4096, .bf16⟩
  | .local _ .vmem, ⟨4, _⟩ => ⟨S1x2048x64, .f32⟩
  | .local _ .vmem, ⟨5, _⟩ => ⟨S1x2048x64, .f32⟩
  | .local _ .vmem, ⟨6, _⟩ => ⟨S2048x64, .f32⟩
  | .local _ .vmem, ⟨7, _⟩ => ⟨S2048x1, .f32⟩
  | _, _ => ⟨S8x64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_c : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_call3_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_call4_v0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 25], ![false, false, false]⟩

def k0_cond2 (i : grid0.Coords) : BitVec 1 :=
  let arg2 : BitVec 32 := BitVec.ofNat 32 (i 2).val
  let c24_i32 : BitVec 32 := 24#32
  let v34 : BitVec 1 := Scalar.cmpi .eq arg2 c24_i32
  let v35 : BitVec 32 := Scalar.extui v34
  let c0_i32_15 : BitVec 32 := 0#32
  let v36 : BitVec 1 := Scalar.cmpi .ne v35 c0_i32_15
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S8x3x100000_S8x3_d2 : S8x3x100000.ReducesTo [2] S8x3
  h_S_ : 0 < S_.numel
  bcast_S8x3_S8x3x1_0_1 : S8x3.BroadcastsInDim S8x3x1 (![0, 1] : Fin 2 → Fin S8x3x1.rank)
  bcast_S_S8x3x1 : S_.BroadcastsInDim S8x3x1 (![] : Fin 0 → Fin S8x3x1.rank)
  bcast_S8x3x1_S8x3x100000_0_1_2 : S8x3x1.BroadcastsInDim S8x3x100000 (![0, 1, 2] : Fin 3 → Fin S8x3x100000.rank)
  reducesTo_S8x3x100000_S8x100000_d1 : S8x3x100000.ReducesTo [1] S8x100000
  bcast_S8x100000_S8x1x100000_0_2 : S8x100000.BroadcastsInDim S8x1x100000 (![0, 2] : Fin 2 → Fin S8x1x100000.rank)
  reducesTo_S8x1x100000_S8x1_d2 : S8x1x100000.ReducesTo [2] S8x1
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x3x100000_0_1_2 : S8x1x1.BroadcastsInDim S8x3x100000 (![0, 1, 2] : Fin 3 → Fin S8x3x100000.rank)
  bcast_S_S8x3x100000 : S_.BroadcastsInDim S8x3x100000 (![] : Fin 0 → Fin S8x3x100000.rank)
  slices_S8x3x100000_S8x1x100000_0_0_0 : S8x3x100000.Slices ![0, 0, 0] S8x1x100000
  shapeCasts_S8x1x100000_S8x100000 : S8x1x100000.ShapeCasts S8x100000
  bcast_S_S8x100000 : S_.BroadcastsInDim S8x100000 (![] : Fin 0 → Fin S8x100000.rank)
  slices_S8x3x100000_S8x1x100000_0_1_0 : S8x3x100000.Slices ![0, 1, 0] S8x1x100000
  slices_S8x3x100000_S8x1x100000_0_2_0 : S8x3x100000.Slices ![0, 2, 0] S8x1x100000
  pads_S8x100000_S8x102400_000_024000 : S8x100000.Pads (![0, 0] : Fin 2 → Nat) ![0, 2400] ![0, 0] S8x102400
  bcast_S8x102400_S8x1x102400_0_2 : S8x102400.BroadcastsInDim S8x1x102400 (![0, 2] : Fin 2 → Fin S8x1x102400.rank)
  bitsLt_bf16_f32 : FTy.bits .bf16 < FTy.bits .f32
  pads_S8x64x100000_S8x64x102400_000_000_024000 : S8x64x100000.Pads (![0, 0, 0] : Fin 3 → Nat) ![0, 0, 2400] ![0, 0, 0] S8x64x102400
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  shapeCasts_S1x1x4096_S1x4096 : S1x1x4096.ShapeCasts S1x4096
  iota_S2048x1_d0_w32 : S2048x1.Iotas .tc 32 [0]
  broadcasts_S1x4096_S2048x4096 : S1x4096.Broadcasts S2048x4096
  broadcasts_S2048x1_S2048x4096 : S2048x1.Broadcasts S2048x4096
  natLt_1_32 : 1 < 32
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S1x64x4096 : S1x64x4096.ShapeCasts S1x64x4096
  shapeCasts_S1x64x4096_S64x4096 : S1x64x4096.ShapeCasts S64x4096
  concatenates_S64x4096_S1x4096_S65x4096_d0 : Shape.Concatenates [S64x4096, S1x4096] S65x4096 0
  slices_S2048x65_o0_0_S2048x64 : S2048x65.Slices ![0, 0] S2048x64
  slices_S2048x65_o0_64_S2048x1 : S2048x65.Slices ![0, 64] S2048x1
  broadcasts_S2048x1_S2048x64 : S2048x1.Broadcasts S2048x64
  shapeCasts_S2048x64_S1x2048x64 : S2048x64.ShapeCasts S1x2048x64
  inb_S1x2048x64_S1x2048x64_0_0_0 : ∀ a, (![0, 0, 0] : Fin 3 → Nat) a + S1x2048x64.size a ≤ S1x2048x64.size a
  h_S1x2048x64 : 0 < S1x2048x64.numel
  shapeCasts_S8x32768x64_S8x32x32x32x64 : S8x32768x64.ShapeCasts S8x32x32x32x64
  transposes_S8x32x32x32x64_S8x64x32x32x32_0_4_1_2_3 : S8x32x32x32x64.Transposes [0, 4, 1, 2, 3] S8x64x32x32x32
  dot_S2048x4096_S65x4096_S2048x65_1_1_0_0_n_n_wf : DotDims.WF S2048x4096 S65x4096 S2048x65 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096.size a ≤ S8x1x102400.size a
  hwx0_0 : ∀ i : grid0.Coords, EltTy.bits .i32 = 32 ∨ (Rect.block (s := S8x1x102400) S1x1x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4096.size a ≤ S8x64x102400.size a
  hwx0_1 : ∀ i : grid0.Coords, EltTy.bits .bf16 = 32 ∨ (Rect.block (s := S8x64x102400) S1x64x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x32768x64.size a
  hwx0_2 : ∀ i : grid0.Coords, EltTy.bits .f32 = 32 ∨ (Rect.block (s := S8x32768x64) S1x2048x64.size (cc0_transform_2 i) (hinb0_2 i)).WholeWords (EltTy.packing .f32)

variable [Facts₀]

def dot_S2048x4096_S65x4096_S2048x65_1_1_0_0_n_n : DotDims S2048x4096 S65x4096 S2048x65 where
  lhsContracting := [1]
  rhsContracting := [1]
  lhsNonContracting := [0]
  rhsNonContracting := [0]
  lhsBatch := []
  rhsBatch := []
  wf := dot_S2048x4096_S65x4096_S2048x65_1_1_0_0_n_n_wf

abbrev win0_0 : Pipeline.Window sig grid0 :=
  Pipeline.Window.ofSpec (Memref.whole main_v35) S1x1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x64x100000 : Shape := ⟨3, ![8, 64, 100000]⟩
abbrev S8x3x100000 : Shape := ⟨3, ![8, 3, 100000]⟩
abbrev S_ : Shape := ⟨0, ![]⟩
abbrev S8x3 : Shape := ⟨2, ![8, 3]⟩
abbrev S8x3x1 : Shape := ⟨3, ![8, 3, 1]⟩
abbrev S8x100000 : Shape := ⟨2, ![8, 100000]⟩
abbrev S8x1x100000 : Shape := ⟨3, ![8, 1, 100000]⟩
abbrev S8x1 : Shape := ⟨2, ![8, 1]⟩
abbrev S8x1x1 : Shape := ⟨3, ![8, 1, 1]⟩
abbrev S8 : Shape := ⟨1, ![8]⟩
abbrev S800000 : Shape := ⟨1, ![800000]⟩
abbrev S8x100000x64 : Shape := ⟨3, ![8, 100000, 64]⟩
abbrev S800000x64 : Shape := ⟨2, ![800000, 64]⟩
abbrev S262144x64 : Shape := ⟨2, ![262144, 64]⟩
abbrev S800000x1 : Shape := ⟨2, ![800000, 1]⟩
abbrev S262144 : Shape := ⟨1, ![262144]⟩
abbrev S262144x1 : Shape := ⟨2, ![262144, 1]⟩
abbrev S8x32x32x32x64 : Shape := ⟨5, ![8, 32, 32, 32, 64]⟩
abbrev S8x64x32x32x32 : Shape := ⟨5, ![8, 64, 32, 32, 32]⟩

abbrev nBuf : Space → Nat
  | .hbm => 84
  | .vmem => 0
  | .smem => 0
  | _ => 0

abbrev bufTy : (tb : Table) → Fin (tcTables nBuf tb) → BufTy
  | .hbm, ⟨0, _⟩ => ⟨S8x64x100000, .f32⟩
  | .hbm, ⟨1, _⟩ => ⟨S8x3x100000, .f32⟩
  | .hbm, ⟨2, _⟩ => ⟨S_, .f32⟩
  | .hbm, ⟨3, _⟩ => ⟨S8x3, .f32⟩
  | .hbm, ⟨4, _⟩ => ⟨S8x3x1, .f32⟩
  | .hbm, ⟨5, _⟩ => ⟨S_, .f32⟩
  | .hbm, ⟨6, _⟩ => ⟨S8x3x1, .f32⟩
  | .hbm, ⟨7, _⟩ => ⟨S8x3x1, .f32⟩
  | .hbm, ⟨8, _⟩ => ⟨S8x3x100000, .f32⟩
  | .hbm, ⟨9, _⟩ => ⟨S8x3x100000, .f32⟩
  | .hbm, ⟨10, _⟩ => ⟨S8x3x100000, .f32⟩
  | .hbm, ⟨11, _⟩ => ⟨S_, .f32⟩
  | .hbm, ⟨12, _⟩ => ⟨S8x100000, .f32⟩
  | .hbm, ⟨13, _⟩ => ⟨S8x1x100000, .f32⟩
  | .hbm, ⟨14, _⟩ => ⟨S8x1x100000, .f32⟩
  | .hbm, ⟨15, _⟩ => ⟨S_, .f32⟩
  | .hbm, ⟨16, _⟩ => ⟨S8x1, .f32⟩
  | .hbm, ⟨17, _⟩ => ⟨S8x1x1, .f32⟩
  | .hbm, ⟨18, _⟩ => ⟨S_, .f32⟩
  | .hbm, ⟨19, _⟩ => ⟨S8x1x1, .f32⟩
  | .hbm, ⟨20, _⟩ => ⟨S8x1x1, .f32⟩
  | .hbm, ⟨21, _⟩ => ⟨S_, .f32⟩
  | .hbm, ⟨22, _⟩ => ⟨S8x1x1, .f32⟩
  | .hbm, ⟨23, _⟩ => ⟨S8x1x1, .f32⟩
  | .hbm, ⟨24, _⟩ => ⟨S8x3x100000, .f32⟩
  | .hbm, ⟨25, _⟩ => ⟨S8x3x100000, .f32⟩
  | .hbm, ⟨26, _⟩ => ⟨S_, .f32⟩
  | .hbm, ⟨27, _⟩ => ⟨S8x3x100000, .f32⟩
  | .hbm, ⟨28, _⟩ => ⟨S8x3x100000, .f32⟩
  | .hbm, ⟨29, _⟩ => ⟨S_, .f32⟩
  | .hbm, ⟨30, _⟩ => ⟨S8x3x100000, .f32⟩
  | .hbm, ⟨31, _⟩ => ⟨S8x3x100000, .f32⟩
  | .hbm, ⟨32, _⟩ => ⟨S_, .f32⟩
  | .hbm, ⟨33, _⟩ => ⟨S_, .i32⟩
  | .hbm, ⟨34, _⟩ => ⟨S_, .f32⟩
  | .hbm, ⟨35, _⟩ => ⟨S8x3x100000, .f32⟩
  | .hbm, ⟨36, _⟩ => ⟨S8x3x100000, .f32⟩
  | .hbm, ⟨37, _⟩ => ⟨S_, .f32⟩
  | .hbm, ⟨38, _⟩ => ⟨S8x3x100000, .f32⟩
  | .hbm, ⟨39, _⟩ => ⟨S8x3x100000, .f32⟩
  | .hbm, ⟨40, _⟩ => ⟨S8x3x100000, .f32⟩
  | .hbm, ⟨41, _⟩ => ⟨S8x3x100000, .i32⟩
  | .hbm, ⟨42, _⟩ => ⟨S8x1x100000, .i32⟩
  | .hbm, ⟨43, _⟩ => ⟨S8x100000, .i32⟩
  | .hbm, ⟨44, _⟩ => ⟨S_, .i32⟩
  | .hbm, ⟨45, _⟩ => ⟨S8x100000, .i32⟩
  | .hbm, ⟨46, _⟩ => ⟨S8x100000, .i32⟩
  | .hbm, ⟨47, _⟩ => ⟨S8x1x100000, .i32⟩
  | .hbm, ⟨48, _⟩ => ⟨S8x100000, .i32⟩
  | .hbm, ⟨49, _⟩ => ⟨S8x100000, .i32⟩
  | .hbm, ⟨50, _⟩ => ⟨S_, .i32⟩
  | .hbm, ⟨51, _⟩ => ⟨S8x100000, .i32⟩
  | .hbm, ⟨52, _⟩ => ⟨S8x100000, .i32⟩
  | .hbm, ⟨53, _⟩ => ⟨S8x1x100000, .i32⟩
  | .hbm, ⟨54, _⟩ => ⟨S8x100000, .i32⟩
  | .hbm, ⟨55, _⟩ => ⟨S8x100000, .i32⟩
  | .hbm, ⟨56, _⟩ => ⟨S8, .i32⟩
  | .hbm, ⟨57, _⟩ => ⟨S8x1, .i32⟩
  | .hbm, ⟨58, _⟩ => ⟨S_, .i32⟩
  | .hbm, ⟨59, _⟩ => ⟨S8x1, .i32⟩
  | .hbm, ⟨60, _⟩ => ⟨S8x1, .i32⟩
  | .hbm, ⟨61, _⟩ => ⟨S8x100000, .i32⟩
  | .hbm, ⟨62, _⟩ => ⟨S8x100000, .i32⟩
  | .hbm, ⟨63, _⟩ => ⟨S800000, .i32⟩
  | .hbm, ⟨64, _⟩ => ⟨S8x100000x64, .f32⟩
  | .hbm, ⟨65, _⟩ => ⟨S800000x64, .f32⟩
  | .hbm, ⟨66, _⟩ => ⟨S_, .f32⟩
  | .hbm, ⟨67, _⟩ => ⟨S262144x64, .f32⟩
  | .hbm, ⟨68, _⟩ => ⟨S800000x1, .i32⟩
  | .hbm, ⟨69, _⟩ => ⟨S262144x64, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S262144, .f32⟩
  | .hbm, ⟨74, _⟩ => ⟨S800000x1, .i32⟩
  | .hbm, ⟨75, _⟩ => ⟨S262144, .f32⟩
  | .hbm, ⟨76, _⟩ => ⟨S_, .f32⟩
  | .hbm, ⟨77, _⟩ => ⟨S262144, .f32⟩
  | .hbm, ⟨78, _⟩ => ⟨S262144, .f32⟩
  | .hbm, ⟨79, _⟩ => ⟨S262144x1, .f32⟩
  | .hbm, ⟨80, _⟩ => ⟨S262144x64, .f32⟩
  | .hbm, ⟨81, _⟩ => ⟨S262144x64, .f32⟩
  | .hbm, ⟨82, _⟩ => ⟨S8x32x32x32x64, .f32⟩
  | .hbm, ⟨83, _⟩ => ⟨S8x64x32x32x32, .f32⟩
  | _, _ => ⟨S8x64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_c : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]

class Facts₀ : Prop where
  reducesTo_S8x3x100000_S8x3_d2 : S8x3x100000.ReducesTo [2] S8x3
  h_S_ : 0 < S_.numel
  bcast_S8x3_S8x3x1_0_1 : S8x3.BroadcastsInDim S8x3x1 (![0, 1] : Fin 2 → Fin S8x3x1.rank)
  bcast_S_S8x3x1 : S_.BroadcastsInDim S8x3x1 (![] : Fin 0 → Fin S8x3x1.rank)
  bcast_S8x3x1_S8x3x100000_0_1_2 : S8x3x1.BroadcastsInDim S8x3x100000 (![0, 1, 2] : Fin 3 → Fin S8x3x100000.rank)
  reducesTo_S8x3x100000_S8x100000_d1 : S8x3x100000.ReducesTo [1] S8x100000
  bcast_S8x100000_S8x1x100000_0_2 : S8x100000.BroadcastsInDim S8x1x100000 (![0, 2] : Fin 2 → Fin S8x1x100000.rank)
  reducesTo_S8x1x100000_S8x1_d2 : S8x1x100000.ReducesTo [2] S8x1
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x3x100000_0_1_2 : S8x1x1.BroadcastsInDim S8x3x100000 (![0, 1, 2] : Fin 3 → Fin S8x3x100000.rank)
  bcast_S_S8x3x100000 : S_.BroadcastsInDim S8x3x100000 (![] : Fin 0 → Fin S8x3x100000.rank)
  slices_S8x3x100000_S8x1x100000_0_0_0 : S8x3x100000.Slices ![0, 0, 0] S8x1x100000
  shapeCasts_S8x1x100000_S8x100000 : S8x1x100000.ShapeCasts S8x100000
  bcast_S_S8x100000 : S_.BroadcastsInDim S8x100000 (![] : Fin 0 → Fin S8x100000.rank)
  slices_S8x3x100000_S8x1x100000_0_1_0 : S8x3x100000.Slices ![0, 1, 0] S8x1x100000
  slices_S8x3x100000_S8x1x100000_0_2_0 : S8x3x100000.Slices ![0, 2, 0] S8x1x100000
  bcast_S8_S8x1_0 : S8.BroadcastsInDim S8x1 (![0] : Fin 1 → Fin S8x1.rank)
  bcast_S_S8x1 : S_.BroadcastsInDim S8x1 (![] : Fin 0 → Fin S8x1.rank)
  bcast_S8x1_S8x100000_0_1 : S8x1.BroadcastsInDim S8x100000 (![0, 1] : Fin 2 → Fin S8x100000.rank)
  shapeCasts_S8x100000_S800000 : S8x100000.ShapeCasts S800000
  transposes_S8x64x100000_S8x100000x64_0_2_1 : S8x64x100000.Transposes [0, 2, 1] S8x100000x64
  shapeCasts_S8x100000x64_S800000x64 : S8x100000x64.ShapeCasts S800000x64
  bcast_S_S262144x64 : S_.BroadcastsInDim S262144x64 (![] : Fin 0 → Fin S262144x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S8x32x32x32x64 : S262144x64.ShapeCasts S8x32x32x32x64
  transposes_S8x32x32x32x64_S8x64x32x32x32_0_4_1_2_3 : S8x32x32x32x64.Transposes [0, 4, 1, 2, 3] S8x64x32x32x32
  scatter_S262144x64_S800000x1_S800000x64_1_0_0_1_wf : ScatterDims.WF S262144x64 S800000x1 S800000x64 [1] [0] [0] 1
  scatter_S262144_S800000x1_S800000_n_0_0_1_wf : ScatterDims.WF S262144 S800000x1 S800000 [] [0] [0] 1

variable [Facts₀]

def scatter_S262144x64_S800000x1_S800000x64_1_0_0_1 : ScatterDims S262144x64 S800000x1 S800000x64 where
  updateWindowDims := [1]
  insertedWindowDims := [0]
  scatterDimsToOperandDims := [0]
  indexVectorDim := 1
  wf := scatter_S262144x64_S800000x1_S800000x64_1_0_0_1_wf
def scatter_S262144_S800000x1_S800000_n_0_0_1 : ScatterDims S262144 S800000x1 S800000 where
  updateWindowDims := []
  insertedWindowDims := [0]
  scatterDimsToOperandDims := [0]
  indexVectorDim := 1
  wf := scatter_S262144_S800000x1_S800000_n_0_0_1_wf

class Facts : Prop extends Facts₀ where

variable [Facts]
-- ==== Proof.KernelPieces.lean ====
/-
  What each of the kernel body's three control cases leaves in the two carried accumulators and in the
  output block, as the body's arithmetic (the payload terms) of the blocks it loaded: the first grid step
  of a voxel tile clears both accumulators and adds the tile's partial sums to the cleared values; every
  later step adds its partial sums to what the step before left; the last step also divides the summed
  features by the clamped counts and stores the quotient as the output block.
-/
import proofs.«151645_j89756226552188_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F]

/-- The zero offsets of a rank-2 block, however spelt. -/
private theorem hz2 : (![0, 0] : Fin 2 → Nat) = fun _ => 0 := funext fun a => by fin_cases a <;> rfl

/-- The zero offsets of a rank-3 block, however spelt. -/
private theorem hz3 : (![0, 0, 0] : Fin 3 → Nat) = fun _ => 0 := funext fun a => by fin_cases a <;> rfl

/-- First step of a tile: the feature accumulator ends at the cleared value plus this step's partial sums. -/
theorem sumsA (c : Dev nD) (i : grid0.Coords) (arg3 : Memref sig .tc .vmem S1x1x4096 .i32) (harg3 : arg3.IsWhole) (arg4 : Memref sig .tc .vmem S1x64x4096 .bf16) (harg4 : arg4.IsWhole) (arg5 : Memref sig .tc .vmem S1x2048x64 .f32) (harg5 : arg5.IsWhole) (arg6 : Memref sig .tc .vmem S2048x64 .f32) (harg6 : arg6.IsWhole) (arg7 : Memref sig .tc .vmem S2048x1 .f32) (harg7 : arg7.IsWhole) (hc0 : cond0_0 i) (hc1 : ¬cond0_1 i)
    (x0 : Vec F S1x1x4096 .i32) (x1 : Vec F S1x64x4096 .bf16) :
    sout0_A_0 (F := F) c i arg3 harg3 arg4 harg4 arg5 harg5 arg6 harg6 arg7 harg7 hc0 hc1 x0 x1 = k0_pay5 i x0 x1 (k0_pay2 (F := F)) := by
  unfold sout0_A_0
  rw [View.read_writes_eq_canon _ _ _ (scover0_A_0 c i arg3 harg3 arg4 harg4 arg5 harg5 arg6 harg6 arg7 harg7 hc0 hc1 x0 x1)]
  unfold kernelRun0_A
  dsimp only
  sl_unfold_words
  -- two whole-block stores, the update over the clearing one: the later one's payload is what is left,
  rw [View.canon_cons_unit_zero (S := S2048x64) hz2]
  -- and the accumulator it read back in between is the cleared value.
  simp only [View.readAt_eq_ld, harg3.read_unread, harg4.read_unread, View.ld_unit_zero (S := S1x1x4096) hz3, View.ld_unit_zero (S := S1x64x4096) hz3,
    View.readCov_unit_zero (S := S2048x64) _ hz2]

/-- First step of a tile: the count accumulator ends at the cleared value plus this step's partial counts. -/
theorem cntsA (c : Dev nD) (i : grid0.Coords) (arg3 : Memref sig .tc .vmem S1x1x4096 .i32) (harg3 : arg3.IsWhole) (arg4 : Memref sig .tc .vmem S1x64x4096 .bf16) (harg4 : arg4.IsWhole) (arg5 : Memref sig .tc .vmem S1x2048x64 .f32) (harg5 : arg5.IsWhole) (arg6 : Memref sig .tc .vmem S2048x64 .f32) (harg6 : arg6.IsWhole) (arg7 : Memref sig .tc .vmem S2048x1 .f32) (harg7 : arg7.IsWhole) (hc0 : cond0_0 i) (hc1 : ¬cond0_1 i)
    (x0 : Vec F S1x1x4096 .i32) (x1 : Vec F S1x64x4096 .bf16) :
    sout0_A_1 (F := F) c i arg3 harg3 arg4 harg4 arg5 harg5 arg6 harg6 arg7 harg7 hc0 hc1 x0 x1 = k0_pay6 i x0 x1 (k0_pay3 (F := F)) := by
  unfold sout0_A_1
  rw [View.read_writes_eq_canon _ _ _ (scover0_A_1 c i arg3 harg3 arg4 harg4 arg5 harg5 arg6 harg6 arg7 harg7 hc0 hc1 x0 x1)]
  unfold kernelRun0_A
  dsimp only
  sl_unfold_words
  -- two whole-block stores, the update over the clearing one: the later one's payload is what is left,
  rw [View.canon_cons_unit_zero (S := S2048x1) hz2]
  -- and the accumulator it read back in between is the cleared value.
  simp only [View.readAt_eq_ld, harg3.read_unread, harg4.read_unread, View.ld_unit_zero (S := S1x1x4096) hz3, View.ld_unit_zero (S := S1x64x4096) hz3,
    View.readCov_unit_zero (S := S2048x1) _ hz2]

/-- A middle step: the feature accumulator ends at what the step before left plus this step's partial sums. -/
theorem sumsB (c : Dev nD) (i : grid0.Coords) (arg3 : Memref sig .tc .vmem S1x1x4096 .i32) (harg3 : arg3.IsWhole) (arg4 : Memref sig .tc .vmem S1x64x4096 .bf16) (harg4 : arg4.IsWhole) (arg5 : Memref sig .tc .vmem S1x2048x64 .f32) (harg5 : arg5.IsWhole) (arg6 : Memref sig .tc .vmem S2048x64 .f32) (harg6 : arg6.IsWhole) (arg7 : Memref sig .tc .vmem S2048x1 .f32) (harg7 : arg7.IsWhole) (hc0 : ¬cond0_0 i) (hc1 : ¬cond0_1 i)
    (x0 : Vec F S1x1x4096 .i32) (x1 : Vec F S1x64x4096 .bf16) (xs0 : Vec F S2048x64 .f32) (xs1 : Vec F S2048x1 .f32) :
    sout0_B_0 (F := F) c i arg3 harg3 arg4 harg4 arg5 harg5 arg6 harg6 arg7 harg7 hc0 hc1 x0 x1 xs0 xs1 = k0_pay5 i x0 x1 xs0 := by
  unfold sout0_B_0
  rw [View.read_writes_eq_canon _ _ _ (scover0_B_0 c i arg3 harg3 arg4 harg4 arg5 harg5 arg6 harg6 arg7 harg7 hc0 hc1 x0 x1 xs0 xs1)]
  unfold kernelRun0_B
  dsimp only
  sl_unfold_words
  -- one whole-block store: its payload is what is left, over whole-block loads of the untouched buffers.
  rw [View.canon_unit_zero hz2]
  simp only [View.readAt_eq_ld, harg3.read_unread, harg4.read_unread, harg6.read_unread, View.ld_unit_zero (S := S1x1x4096) hz3, View.ld_unit_zero (S := S1x64x4096) hz3,
    View.ld_unit_zero (S := S2048x64) hz2]

theorem cntsB (c : Dev nD) (i : grid0.Coords) (arg3 : Memref sig .tc .vmem S1x1x4096 .i32) (harg3 : arg3.IsWhole) (arg4 : Memref sig .tc .vmem S1x64x4096 .bf16) (harg4 : arg4.IsWhole) (arg5 : Memref sig .tc .vmem S1x2048x64 .f32) (harg5 : arg5.IsWhole) (arg6 : Memref sig .tc .vmem S2048x64 .f32) (harg6 : arg6.IsWhole) (arg7 : Memref sig .tc .vmem S2048x1 .f32) (harg7 : arg7.IsWhole) (hc0 : ¬cond0_0 i) (hc1 : ¬cond0_1 i)
    (x0 : Vec F S1x1x4096 .i32) (x1 : Vec F S1x64x4096 .bf16) (xs0 : Vec F S2048x64 .f32) (xs1 : Vec F S2048x1 .f32) :
    sout0_B_1 (F := F) c i arg3 harg3 arg4 harg4 arg5 harg5 arg6 harg6 arg7 harg7 hc0 hc1 x0 x1 xs0 xs1 = k0_pay6 i x0 x1 xs1 := by
  unfold sout0_B_1
  rw [View.read_writes_eq_canon _ _ _ (scover0_B_1 c i arg3 harg3 arg4 harg4 arg5 harg5 arg6 harg6 arg7 harg7 hc0 hc1 x0 x1 xs0 xs1)]
  unfold kernelRun0_B
  dsimp only
  sl_unfold_words
  -- one whole-block store: its payload is what is left, over whole-block loads of the untouched buffers.
  rw [View.canon_unit_zero hz2]
  simp only [View.readAt_eq_ld, harg3.read_unread, harg4.read_unread, harg7.read_unread, View.ld_unit_zero (S := S1x1x4096) hz3, View.ld_unit_zero (S := S1x64x4096) hz3,
    View.ld_unit_zero (S := S2048x1) hz2]

/-- The last step: the accumulators as in a middle step, -/
theorem sumsC (c : Dev nD) (i : grid0.Coords) (arg3 : Memref sig .tc .vmem S1x1x4096 .i32) (harg3 : arg3.IsWhole) (arg4 : Memref sig .tc .vmem S1x64x4096 .bf16) (harg4 : arg4.IsWhole) (arg5 : Memref sig .tc .vmem S1x2048x64 .f32) (harg5 : arg5.IsWhole) (arg6 : Memref sig .tc .vmem S2048x64 .f32) (harg6 : arg6.IsWhole) (arg7 : Memref sig .tc .vmem S2048x1 .f32) (harg7 : arg7.IsWhole) (hc0 : ¬cond0_0 i) (hc1 : cond0_1 i)
    (x0 : Vec F S1x1x4096 .i32) (x1 : Vec F S1x64x4096 .bf16) (xs0 : Vec F S2048x64 .f32) (xs1 : Vec F S2048x1 .f32) :
    sout0_C_0 (F := F) c i arg3 harg3 arg4 harg4 arg5 harg5 arg6 harg6 arg7 harg7 hc0 hc1 x0 x1 xs0 xs1 = k0_pay5 i x0 x1 xs0 := by
  unfold sout0_C_0
  rw [View.read_writes_eq_canon _ _ _ (scover0_C_0 c i arg3 harg3 arg4 harg4 arg5 harg5 arg6 harg6 arg7 harg7 hc0 hc1 x0 x1 xs0 xs1)]
  unfold kernelRun0_C
  dsimp only
  sl_unfold_words
  -- one whole-block store: its payload is what is left, over whole-block loads of the untouched buffers.
  rw [View.canon_unit_zero hz2]
  simp only [View.readAt_eq_ld, harg3.read_unread, harg4.read_unread, harg6.read_unread, View.ld_unit_zero (S := S1x1x4096) hz3, View.ld_unit_zero (S := S1x64x4096) hz3,
    View.ld_unit_zero (S := S2048x64) hz2]

theorem cntsC (c : Dev nD) (i : grid0.Coords) (arg3 : Memref sig .tc .vmem S1x1x4096 .i32) (harg3 : arg3.IsWhole) (arg4 : Memref sig .tc .vmem S1x64x4096 .bf16) (harg4 : arg4.IsWhole) (arg5 : Memref sig .tc .vmem S1x2048x64 .f32) (harg5 : arg5.IsWhole) (arg6 : Memref sig .tc .vmem S2048x64 .f32) (harg6 : arg6.IsWhole) (arg7 : Memref sig .tc .vmem S2048x1 .f32) (harg7 : arg7.IsWhole) (hc0 : ¬cond0_0 i) (hc1 : cond0_1 i)
    (x0 : Vec F S1x1x4096 .i32) (x1 : Vec F S1x64x4096 .bf16) (xs0 : Vec F S2048x64 .f32) (xs1 : Vec F S2048x1 .f32) :
    sout0_C_1 (F := F) c i arg3 harg3 arg4 harg4 arg5 harg5 arg6 harg6 arg7 harg7 hc0 hc1 x0 x1 xs0 xs1 = k0_pay6 i x0 x1 xs1 := by
  unfold sout0_C_1
  rw [View.read_writes_eq_canon _ _ _ (scover0_C_1 c i arg3 harg3 arg4 harg4 arg5 harg5 arg6 harg6 arg7 harg7 hc0 hc1 x0 x1 xs0 xs1)]
  unfold kernelRun0_C
  dsimp only
  sl_unfold_words
  -- one whole-block store: its payload is what is left, over whole-block loads of the untouched buffers.
  rw [View.canon_unit_zero hz2]
  simp only [View.readAt_eq_ld, harg3.read_unread, harg4.read_unread, harg7.read_unread, View.ld_unit_zero (S := S1x1x4096) hz3, View.ld_unit_zero (S := S1x64x4096) hz3,
    View.ld_unit_zero (S := S2048x1) hz2]

/-- and the output block is the quotient of the final sums by the final counts clamped below by one. -/
theorem outC (c : Dev nD) (i : grid0.Coords) (arg3 : Memref sig .tc .vmem S1x1x4096 .i32) (harg3 : arg3.IsWhole) (arg4 : Memref sig .tc .vmem S1x64x4096 .bf16) (harg4 : arg4.IsWhole) (arg5 : Memref sig .tc .vmem S1x2048x64 .f32) (harg5 : arg5.IsWhole) (arg6 : Memref sig .tc .vmem S2048x64 .f32) (harg6 : arg6.IsWhole) (arg7 : Memref sig .tc .vmem S2048x1 .f32) (harg7 : arg7.IsWhole) (hc0 : ¬cond0_0 i) (hc1 : cond0_1 i)
    (x0 : Vec F S1x1x4096 .i32) (x1 : Vec F S1x64x4096 .bf16) (xs0 : Vec F S2048x64 .f32) (xs1 : Vec F S2048x1 .f32) :
    out0_C_2 (F := F) c i arg3 harg3 arg4 harg4 arg5 harg5 arg6 harg6 arg7 harg7 hc0 hc1 x0 x1 xs0 xs1 = k0_pay1 (k0_pay5 i x0 x1 xs0) (k0_pay6 i x0 x1 xs1) := by
  unfold out0_C_2
  rw [View.read_writes_eq_canon _ _ _ (cover0_C_2 c i arg3 harg3 arg4 harg4 arg5 harg5 arg6 harg6 arg7 harg7 hc0 hc1 x0 x1 xs0 xs1)]
  unfold kernelRun0_C
  dsimp only
  sl_unfold_words
  -- one whole-block store of the quotient; the two accumulators it divides were read back after their
  -- update stores, so they are those stores' payloads.
  rw [View.canon_unit_zero hz3]
  simp only [View.readAt_eq_ld, harg3.read_unread, harg4.read_unread, harg6.read_unread, harg7.read_unread, View.ld_unit_zero (S := S1x1x4096) hz3, View.ld_unit_zero (S := S1x64x4096) hz3,
    View.ld_unit_zero (S := S2048x64) hz2, View.ld_unit_zero (S := S2048x1) hz2, View.readCov_unit_zero (S := S2048x64) _ hz2, View.readCov_unit_zero (S := S2048x1) _ hz2]

end Cert.KernelIdeal.Pieces

end
-- ==== Proof.KernelPayload.lean ====
/-
  The kernel body's arithmetic read at an index, over the extended reals.

  A grid step compares the 4096 voxel words of its point block with the 2048 voxel words of its tile
  (row `r` of tile `v` stands for the word `v * 2048 + r`), and multiplies the resulting zero-one matrix
  with the 64 feature rows of the block extended by a row of ones.  So entry `(r, f)` of the product is
  the sum of channel `f` over the block's points whose word is row `r`'s, and entry `(r, 64)` counts
  those points.  The accumulators add these to what they held; the last step divides sums by counts
  clamped below by one.
-/
import proofs.«151645_j89756226552188_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.Payload

open Idealize.ShloMosaic Idealize.ShloMosaic.TcCoe Idealize.ShloMosaic.ValueIdx
open Cert.KernelIdeal Cert.KernelIdeal.Gen

/-- The voxel word that row `r` of the tile at grid point `i` stands for. -/
def rowWord (i : grid0.Coords) (r : Fin 2048) : BitVec 32 := BitVec.ofNat 32 ((i 1).val * 2048 + r.val)

/-! ## Small facts the reading uses -/

/-- A `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An equality test of two words, widened and converted, is one where they agree and zero elsewhere. -/
theorem sitofp_extui_cmpi_eq (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h
    rw [if_pos rfl]
    have e : (IntOp.cmpi .eq a a).setWidth 32 = 1#32 := by
      unfold IntOp.cmpi
      simp
    rw [e]
    have : (1#32).toInt = 1 := by decide
    rw [this]
    simp
  · rw [if_neg h]
    have e : (IntOp.cmpi .eq a b).setWidth 32 = 0#32 := by
      unfold IntOp.cmpi
      have hb : (a == b) = false := beq_eq_false_iff_ne.mpr h
      rw [hb]
      rfl
    rw [e]
    have : (0#32).toInt = 0 := by decide
    rw [this]
    simp

/-- A zero-one factor selects its cofactor. -/
theorem ite_one_zero_mul (c : Prop) [Decidable c] (x : EReal) : (if c then (1 : EReal) else 0) * x = if c then x else 0 := by
  split
  · exact one_mul x
  · exact zero_mul x

/-- Row `r` of tile `v`: the row number plus the tile's offset, as one word. -/
theorem row_word_eq (i : grid0.Coords) (r : Fin 2048) :
    IntOp.addi (BitVec.ofNat 32 r.val) (Scalar.muli (BitVec.ofNat 32 (i 1).val) 2048#32) = rowWord i r := by
  show BitVec.ofNat 32 r.val + BitVec.ofNat 32 (i 1).val * BitVec.ofNat 32 2048 = BitVec.ofNat 32 ((i 1).val * 2048 + r.val)
  rw [← BitVec.ofNat_mul, ← BitVec.ofNat_add, Nat.add_comm]

/-! ## The two operands of the product -/

/-- The block's voxel words, one row of 4096 repeated down the 2048 rows. -/
def blockWords (x0 : IVec S1x1x4096 32) : IVec S2048x4096 32 :=
  broadcastTo S2048x4096 (shapeCast S1x4096 (shapeCast S1x1x4096 x0 shapeCasts_S1x1x4096_S1x1x4096) shapeCasts_S1x1x4096_S1x4096)
    broadcasts_S1x4096_S2048x4096

/-- The tile's voxel words, one column of 2048 repeated along the 4096 columns. -/
def tileWords (i : grid0.Coords) : IVec S2048x4096 32 :=
  broadcastTo S2048x4096
    (addi (iota .tc S2048x1 32 [0] iota_S2048x1_d0_w32) (broadcast S2048x1 (Scalar.muli (BitVec.ofNat 32 (i 1).val) 2048#32)))
    broadcasts_S2048x1_S2048x4096

/-- The zero-one matrix: entry `(r, k)` is one when point `k` of the block lies in row `r`'s voxel. -/
def onehot (i : grid0.Coords) (x0 : IVec S1x1x4096 32) : FVec Ideal S2048x4096 .bf16 :=
  truncf .bf16 (sitofp .f32 (extui 32 (cmpi .eq (blockWords x0) (tileWords i)) natLt_1_32)) bitsLt_bf16_f32

/-- The 64 feature rows of the block with a row of ones below them. -/
def extended (x1 : FVec Ideal S1x64x4096 .bf16) : FVec Ideal S65x4096 .bf16 :=
  concatenate S65x4096 0
    [⟨S64x4096, shapeCast S64x4096 (shapeCast S1x64x4096 x1 shapeCasts_S1x64x4096_S1x64x4096) shapeCasts_S1x64x4096_S64x4096⟩,
     ⟨S1x4096, broadcast S1x4096 (Scalar.ofBits .bf16 0x3F80#16)⟩]
    concatenates_S64x4096_S1x4096_S65x4096_d0

/-- The product term is the product of these two operands into the zero accumulator. -/
theorem pay4_eq (i : grid0.Coords) (x0 : IVec S1x1x4096 32) (x1 : FVec Ideal S1x64x4096 .bf16) :
    k0_pay4 (F := Ideal) i x0 x1
      = matmul dot_S2048x4096_S65x4096_S2048x65_1_1_0_0_n_n none (onehot i x0) (extended x1)
          (constant (F := Ideal) S2048x65 .f32 0x00000000#32) := rfl

/-- Every row of the block's words is the block's one row of words. -/
theorem blockWords_apply (x0 : IVec S1x1x4096 32) (r : Fin 2048) (k : Fin 4096) :
    blockWords x0 (ix2 r k) = x0 (ix3 (0 : Fin 1) (0 : Fin 1) k) := by
  unfold blockWords
  rw [broadcastTo_1b_ab_apply, shapeCast_1ab_ab_apply, shapeCast_self]

/-- Every column of the tile's words holds row `r`'s word at row `r`. -/
theorem tileWords_apply (i : grid0.Coords) (r : Fin 2048) (k : Fin 4096) : tileWords i (ix2 r k) = rowWord i r := by
  unfold tileWords
  rw [broadcastTo_a1_ab_apply]
  show IntOp.addi (iota .tc S2048x1 32 [0] iota_S2048x1_d0_w32 (ix2 r (0 : Fin 1))) (Scalar.muli (BitVec.ofNat 32 (i 1).val) 2048#32) = _
  rw [iota_single_apply]
  exact row_word_eq i r

/-- The zero-one matrix at `(r, k)`: one exactly when point `k`'s word is row `r`'s. -/
theorem onehot_apply (i : grid0.Coords) (x0 : IVec S1x1x4096 32) (r : Fin 2048) (k : Fin 4096) :
    onehot i x0 (ix2 r k) = if x0 (ix3 (0 : Fin 1) (0 : Fin 1) k) = rowWord i r then (1 : EReal) else 0 := by
  show (FloatOps.sitofp (F := Ideal) .f32 ((IntOp.cmpi .eq (blockWords x0 (ix2 r k)) (tileWords i (ix2 r k))).setWidth 32) : EReal) = _
  rw [blockWords_apply, tileWords_apply, sitofp_extui_cmpi_eq]

/-- Above the row of ones the extended matrix is the block's features. -/
theorem extended_apply_feature (x1 : FVec Ideal S1x64x4096 .bf16) (f : Fin 64) (j : Fin 65) (hj : j.val = f.val) (k : Fin 4096) :
    extended x1 (ix2 j k) = x1 (ix3 (0 : Fin 1) f k) := by
  unfold extended
  rw [concatenate_pair_apply_left (t := S65x4096) (s₁ := S64x4096) (s₂ := S1x4096) (0 : Fin S65x4096.rank) _ _ _ (ix2 j k) rfl (ix2 f k)
    (fun b => by match b with | ⟨0, _⟩ => exact hj.symm | ⟨1, _⟩ => rfl)]
  rw [shapeCast_1ab_ab_apply, shapeCast_self]

/-- Its last row is ones. -/
theorem extended_apply_ones (x1 : FVec Ideal S1x64x4096 .bf16) (j : Fin 65) (hj : j.val = 64) (k : Fin 4096) :
    extended x1 (ix2 j k) = (1 : EReal) := by
  unfold extended
  rw [concatenate_pair_apply_right (t := S65x4096) (s₁ := S64x4096) (s₂ := S1x4096) (0 : Fin S65x4096.rank) _ _ _ (ix2 j k) rfl rfl (ix2 (0 : Fin 1) k)
    (fun b hb => by match b, hb with | ⟨0, _⟩, hb => exact absurd rfl hb | ⟨1, _⟩, _ => rfl)
    (by show 0 + 64 = j.val; omega)]
  rw [broadcast_apply]
  exact Ideal.ofBits_one_bf16

/-! ## The product read at an index -/

/-- The left operand's index at output `(r, j)` and contraction position `q` is `(r, q)` … -/
theorem lhs_pay4_0 (i : S2048x65.Idx) (q : dot_S2048x4096_S65x4096_S2048x65_1_1_0_0_n_n.contr.Idx) :
    (dot_S2048x4096_S65x4096_S2048x65_1_1_0_0_n_n.lhsIdx i q 0).val = (i 0).val := by
  unfold DotDims.lhsIdx
  rw [dif_neg (show ¬(0 : Fin S2048x4096.rank) ∈ dot_S2048x4096_S65x4096_S2048x65_1_1_0_0_n_n.lhsBatch by decide), dif_pos (show (0 : Fin S2048x4096.rank) ∈ dot_S2048x4096_S65x4096_S2048x65_1_1_0_0_n_n.lhsNonContracting by decide)]
  rfl
theorem lhs_pay4_1 (i : S2048x65.Idx) (q : dot_S2048x4096_S65x4096_S2048x65_1_1_0_0_n_n.contr.Idx) :
    (dot_S2048x4096_S65x4096_S2048x65_1_1_0_0_n_n.lhsIdx i q 1).val = (q ⟨0, by decide⟩).val :=
  dot_S2048x4096_S65x4096_S2048x65_1_1_0_0_n_n.lhsIdx_val_of_single rfl i q
/-- … and the right operand's is `(j, q)`: both operands are contracted along their second axis. -/
theorem rhs_pay4_0 (i : S2048x65.Idx) (q : dot_S2048x4096_S65x4096_S2048x65_1_1_0_0_n_n.contr.Idx) :
    (dot_S2048x4096_S65x4096_S2048x65_1_1_0_0_n_n.rhsIdx i q 0).val = (i 1).val := by
  unfold DotDims.rhsIdx
  rw [dif_neg (show ¬(0 : Fin S65x4096.rank) ∈ dot_S2048x4096_S65x4096_S2048x65_1_1_0_0_n_n.rhsBatch by decide), dif_pos (show (0 : Fin S65x4096.rank) ∈ dot_S2048x4096_S65x4096_S2048x65_1_1_0_0_n_n.rhsNonContracting by decide)]
  rfl
theorem rhs_pay4_1 (i : S2048x65.Idx) (q : dot_S2048x4096_S65x4096_S2048x65_1_1_0_0_n_n.contr.Idx) :
    (dot_S2048x4096_S65x4096_S2048x65_1_1_0_0_n_n.rhsIdx i q 1).val = (q ⟨0, by decide⟩).val :=
  dot_S2048x4096_S65x4096_S2048x65_1_1_0_0_n_n.rhsIdx_val_of_single rfl i q

/-- The product into the zero accumulator, at `(r, j)`: row `r` of the left operand against row `j` of the right. -/
theorem product_apply (L : FVec Ideal S2048x4096 .bf16) (R : FVec Ideal S65x4096 .bf16) (r : Fin 2048) (j : Fin 65) :
    matmul dot_S2048x4096_S65x4096_S2048x65_1_1_0_0_n_n none L R (constant (F := Ideal) S2048x65 .f32 0x00000000#32) (ix2 r j)
      = ∑ k : Fin 4096, (L (ix2 r k) : EReal) * R (ix2 j k) := by
  simp only [matmul]
  rw [Ideal.matmul_constant_zero_apply, ← Equiv.sum_comp (ValueIdx.contrEquiv1 dot_S2048x4096_S65x4096_S2048x65_1_1_0_0_n_n 4096 rfl rfl).symm]
  refine Finset.sum_congr rfl fun k _ => ?_
  have hk := ValueIdx.contrEquiv1_symm_val dot_S2048x4096_S65x4096_S2048x65_1_1_0_0_n_n 4096 rfl rfl k
  have el : dot_S2048x4096_S65x4096_S2048x65_1_1_0_0_n_n.lhsIdx (ix2 r j) ((ValueIdx.contrEquiv1 dot_S2048x4096_S65x4096_S2048x65_1_1_0_0_n_n 4096 rfl rfl).symm k) = ix2 r k := funext fun a => Fin.ext (by
    match a with
    | ⟨0, _⟩ => exact lhs_pay4_0 _ _
    | ⟨1, _⟩ => exact (lhs_pay4_1 _ _).trans hk)
  have er : dot_S2048x4096_S65x4096_S2048x65_1_1_0_0_n_n.rhsIdx (ix2 r j) ((ValueIdx.contrEquiv1 dot_S2048x4096_S65x4096_S2048x65_1_1_0_0_n_n 4096 rfl rfl).symm k) = ix2 j k := funext fun a => Fin.ext (by
    match a with
    | ⟨0, _⟩ => exact rhs_pay4_0 _ _
    | ⟨1, _⟩ => exact (rhs_pay4_1 _ _).trans hk)
  rw [el, er]

/-- Column `f` of the product, `f` below 64: channel `f` summed over the block's points in row `r`'s voxel. -/
theorem pay4_feature (i : grid0.Coords) (x0 : IVec S1x1x4096 32) (x1 : FVec Ideal S1x64x4096 .bf16) (r : Fin 2048) (f : Fin 64)
    (j : Fin 65) (hj : j.val = f.val) :
    k0_pay4 (F := Ideal) i x0 x1 (ix2 r j)
      = ∑ k : Fin 4096, if x0 (ix3 (0 : Fin 1) (0 : Fin 1) k) = rowWord i r then (x1 (ix3 (0 : Fin 1) f k) : EReal) else 0 := by
  rw [pay4_eq, product_apply]
  refine Finset.sum_congr rfl fun k _ => ?_
  rw [onehot_apply, extended_apply_feature x1 f j hj k, ite_one_zero_mul]

/-- Column 64 of the product: the number of the block's points in row `r`'s voxel. -/
theorem pay4_count (i : grid0.Coords) (x0 : IVec S1x1x4096 32) (x1 : FVec Ideal S1x64x4096 .bf16) (r : Fin 2048)
    (j : Fin 65) (hj : j.val = 64) :
    k0_pay4 (F := Ideal) i x0 x1 (ix2 r j)
      = ∑ k : Fin 4096, if x0 (ix3 (0 : Fin 1) (0 : Fin 1) k) = rowWord i r then (1 : EReal) else 0 := by
  rw [pay4_eq, product_apply]
  refine Finset.sum_congr rfl fun k _ => ?_
  rw [onehot_apply, extended_apply_ones x1 j hj k, ite_one_zero_mul]

/-! ## The stored values -/

/-- The cleared feature accumulator is zero. -/
theorem pay2_apply (r : Fin 2048) (f : Fin 64) : k0_pay2 (F := Ideal) (ix2 r f) = (0 : EReal) := by
  unfold k0_pay2
  rw [shapeCast_self, broadcast_apply]
  exact Ideal.ofBits_zero_f32

/-- The cleared count accumulator is zero. -/
theorem pay3_apply (r : Fin 2048) : k0_pay3 (F := Ideal) (ix2 r (0 : Fin 1)) = (0 : EReal) := by
  unfold k0_pay3
  rw [shapeCast_self, broadcast_apply]
  exact Ideal.ofBits_zero_f32

/-- The updated feature accumulator: the old value plus channel `f` summed over the block's points in row `r`'s voxel. -/
theorem pay5_apply (i : grid0.Coords) (x0 : Vec Ideal S1x1x4096 .i32) (x1 : Vec Ideal S1x64x4096 .bf16)
    (xs0 : Vec Ideal S2048x64 .f32) (r : Fin 2048) (f : Fin 64) :
    k0_pay5 (F := Ideal) i x0 x1 xs0 (ix2 r f)
      = (xs0 (ix2 r f) : EReal) + ∑ k : Fin 4096, if x0 (ix3 (0 : Fin 1) (0 : Fin 1) k) = rowWord i r then (x1 (ix3 (0 : Fin 1) f k) : EReal) else 0 := by
  have key : ∀ (y0 : IVec S1x1x4096 32) (y1 : FVec Ideal S1x64x4096 .bf16) (ys : FVec Ideal S2048x64 .f32),
      k0_pay5 (F := Ideal) i y0 y1 ys (ix2 r f)
        = (ys (ix2 r f) : EReal) + ∑ k : Fin 4096, if y0 (ix3 (0 : Fin 1) (0 : Fin 1) k) = rowWord i r then (y1 (ix3 (0 : Fin 1) f k) : EReal) else 0 := by
    intro y0 y1 ys
    unfold k0_pay5
    rw [shapeCast_self, addf_apply, slice2_axis1_apply 0 _ _ r f ⟨f.val, by omega⟩ (by simp),
      pay4_feature i y0 y1 r f _ rfl]
  exact key x0 x1 xs0

/-- The updated count accumulator: the old value plus the number of the block's points in row `r`'s voxel. -/
theorem pay6_apply (i : grid0.Coords) (x0 : Vec Ideal S1x1x4096 .i32) (x1 : Vec Ideal S1x64x4096 .bf16)
    (xs1 : Vec Ideal S2048x1 .f32) (r : Fin 2048) :
    k0_pay6 (F := Ideal) i x0 x1 xs1 (ix2 r (0 : Fin 1))
      = (xs1 (ix2 r (0 : Fin 1)) : EReal) + ∑ k : Fin 4096, if x0 (ix3 (0 : Fin 1) (0 : Fin 1) k) = rowWord i r then (1 : EReal) else 0 := by
  have key : ∀ (y0 : IVec S1x1x4096 32) (y1 : FVec Ideal S1x64x4096 .bf16) (ys : FVec Ideal S2048x1 .f32),
      k0_pay6 (F := Ideal) i y0 y1 ys (ix2 r (0 : Fin 1))
        = (ys (ix2 r (0 : Fin 1)) : EReal) + ∑ k : Fin 4096, if y0 (ix3 (0 : Fin 1) (0 : Fin 1) k) = rowWord i r then (1 : EReal) else 0 := by
    intro y0 y1 ys
    unfold k0_pay6
    rw [shapeCast_self, addf_apply, slice2_axis1_apply 64 _ _ r (0 : Fin 1) ⟨64, by omega⟩ (by simp),
      pay4_count i y0 y1 r _ rfl]
  exact key x0 x1 xs1

/-- The output block: sums divided by counts clamped below by one. -/
theorem pay1_apply (v37 : Vec Ideal S2048x64 .f32) (v38 : Vec Ideal S2048x1 .f32) (r : Fin 2048) (f : Fin 64) :
    k0_pay1 (F := Ideal) v37 v38 (ix3 (0 : Fin 1) r f)
      = Ideal.div (v37 (ix2 r f)) (max (v38 (ix2 r (0 : Fin 1))) (1 : EReal)) := by
  have key : ∀ (a : FVec Ideal S2048x64 .f32) (b : FVec Ideal S2048x1 .f32),
      k0_pay1 (F := Ideal) a b (ix3 (0 : Fin 1) r f) = Ideal.div (a (ix2 r f)) (max (b (ix2 r (0 : Fin 1))) (1 : EReal)) := by
    intro a b
    unfold k0_pay1
    rw [shapeCast_ab_1ab_apply, divf_apply, broadcastTo_a1_ab_apply, maximumf_apply, broadcast_apply]
    show Ideal.div (a (ix2 r f)) (max (b (ix2 r (0 : Fin 1))) (Ideal.ofBits .f32 0x3F800000#32)) = _
    rw [Ideal.ofBits_one_f32]
  exact key v37 v38

end Cert.KernelIdeal.Payload

end
-- ==== Proof.KernelHost.lean ====
/-
  What the kernel's host program hands its one pallas_call, and its second result, as functions of the
  two arguments.

  Before the call @main turns the coordinates into one voxel word per point (`idxK`: the very operations the
  reference applies, so the value is named by the reference's stage), pads each cloud's
  100000 words to 102400 with the word 32768 (which is no voxel's word: voxels are numbered below 32768),
  and pads the features, rounded to bf16 (the identity over the extended reals), with zeros.  The
  normalised coordinates (`ncK`) are @main's second result.
-/
import proofs.«151645_j89756226552188_1_alg».proof.Proof.Gen.KernelIdeal.Frame.Runs
import proofs.«151645_j89756226552188_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.HostSide

open Idealize.ShloMosaic Idealize.ShloMosaic.TcCoe Idealize.ShloMosaic.ValueIdx Idealize.SL.Sem
open Cert.KernelIdeal Cert.KernelIdeal.Gen

/-- The voxel word of every point, from the coordinates: the host program's value %33, which the kernel's @main and
    the reference compute by the same operations; named by the reference's stage. -/
abbrev idxK (a1 : (⟨S8x3x100000, .f32⟩ : BufTy).Contents (Elt Ideal)) : (⟨S8x100000, .i32⟩ : BufTy).Contents (Elt Ideal) :=
  Cert.ReferenceIdeal.Read.val_main_v33 (F := Ideal) a1

/-- The normalised coordinates, the host program's value %19 and second result; named by the reference's stage. -/
abbrev ncK (a1 : (⟨S8x3x100000, .f32⟩ : BufTy).Contents (Elt Ideal)) : (⟨S8x3x100000, .f32⟩ : BufTy).Contents (Elt Ideal) :=
  Cert.ReferenceIdeal.Read.val_main_v19 (F := Ideal) a1

/-! ## The three arrays as whole terms of the arguments, for any float values

The host operations before the call are composed, one result buffer at a time, into one term of the two arguments.
Up to %19 and %33 the composition is, operation for operation, the reference's, so it is the reference's stage; the
comparison is made over an arbitrary float instance, where every arithmetic operation is an uninterpreted symbol and
the two terms are compared as written. -/

section AnyFloat

variable {F : FTy → Type} [FloatOps F]
variable (m : (ℓ : Loc nD τ sig) → Buf (Elt F) ℓ)

/-- %19 when the call is entered is the reference's stage %19 of the coordinates. -/
theorem V_v19_eq (c : Dev nD) :
    V m c main_v19 = Cert.ReferenceIdeal.Read.val_main_v19 (F := F) (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- %35 when the call is entered: the reference's stage %33 of the coordinates, padded along the points with the word
    32768 and given a middle axis of size one. -/
theorem V_v35_eq (c : Dev nD) :
    (V m c main_v35 : (⟨S8x1x102400, .i32⟩ : BufTy).Contents (Elt F))
      = broadcastInDim S8x1x102400 ![0, 2] bcast_S8x102400_S8x1x102400_0_2
          (pad S8x102400 ![0, 0] ![0, 2400] ![0, 0]
            (Cert.ReferenceIdeal.Read.val_main_v33 (F := F) (m ((c.tc : Thread nD τ).loc main_arg1)))
            (constantI S_ 32 32768#32) pads_S8x100000_S8x102400_000_024000 h_S_) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- %37 when the call is entered: the features narrowed to bf16, padded along the points with the converted word 0. -/
theorem V_v37_eq (c : Dev nD) :
    (V m c main_v37 : (⟨S8x64x102400, .bf16⟩ : BufTy).Contents (Elt F))
      = pad S8x64x102400 ![0, 0, 0] ![0, 0, 2400] ![0, 0, 0]
          (truncf .bf16 (m ((c.tc : Thread nD τ).loc main_arg0)) bitsLt_bf16_f32)
          (sitofp .bf16 (constantI S_ 32 0#32)) pads_S8x64x100000_S8x64x102400_000_000_024000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

end AnyFloat

variable (m : (ℓ : Loc nD τ sig) → Buf (Elt Ideal) ℓ)

/-- The call's first operand (%35): slot `p` of cloud `b` holds point `p`'s voxel word, a padding slot the word 32768. -/
theorem V_words (c : Dev nD) (b : Fin 8) (p : Fin 102400) :
    (V m c main_v35 : S8x1x102400.Idx → BitVec 32) (ix3 b (0 : Fin 1) p)
      = if h : p.val < 100000 then idxK (m ((c.tc : Thread nD τ).loc main_arg1)) (ix2 b ⟨p.val, h⟩) else 32768#32 := by
  -- the whole array, then the new middle axis read away: entry (b, 0, p) is the padded matrix's entry (b, p)
  refine (congrFun (V_v35_eq m c) (ix3 b (0 : Fin 1) p)).trans ?_
  refine (broadcastInDim_apply _ bcast_S8x102400_S8x1x102400_0_2 _ (ix3 b (0 : Fin 1) p) (ix2 b p) (fun a => match a with
    | ⟨0, _⟩ => by show b.val = if (8 : Nat) = 1 then 0 else b.val; rw [if_neg (by decide)]
    | ⟨1, _⟩ => by show p.val = if (102400 : Nat) = 1 then 0 else p.val; rw [if_neg (by decide)])).trans ?_
  by_cases h : p.val < 100000
  · -- a point's slot: no low padding and no interior padding, so the padded entry (b, p) is the operand's
    rw [dif_pos h]
    exact pad_apply_of_inside _ _ _ _ _ pads_S8x100000_S8x102400_000_024000 h_S_ (ix2 b p) (ix2 b ⟨p.val, h⟩) (fun a => match a with
      | ⟨0, _⟩ => by show b.val = 0 + b.val * (0 + 1); omega
      | ⟨1, _⟩ => by show p.val = 0 + p.val * (0 + 1); omega)
  · -- a slot past the last point lies outside the operand along the points: the padding word
    rw [dif_neg h]
    refine (pad_apply_of_not_inside _ _ _ _ _ pads_S8x100000_S8x102400_000_024000 h_S_ (ix2 b p) (1 : Fin 2) ?_).trans rfl
    show ¬(0 ≤ p.val ∧ (p.val - 0) % (0 + 1) = 0 ∧ (p.val - 0) / (0 + 1) < 100000)
    rintro ⟨_, _, h3⟩
    rw [Nat.sub_zero, Nat.zero_add, Nat.div_one] at h3
    exact h h3

/-- The call's second operand (%37): slot `p` of channel `f` of cloud `b` holds point `p`'s feature, a padding slot zero. -/
theorem V_feats (c : Dev nD) (b : Fin 8) (f : Fin 64) (p : Fin 102400) :
    (V m c main_v37 : S8x64x102400.Idx → EReal) (ix3 b f p)
      = (if h : p.val < 100000 then m ((c.tc : Thread nD τ).loc main_arg0) (ix3 b f ⟨p.val, h⟩) else 0 : EReal) := by
  refine (congrFun (V_v37_eq m c) (ix3 b f p)).trans ?_
  by_cases h : p.val < 100000
  · -- a point's slot reads the narrowed features there, and narrowing changes no extended real
    rw [dif_pos h]
    refine (pad_apply_of_inside _ _ _ _ _ pads_S8x64x100000_S8x64x102400_000_000_024000 h_S_ (ix3 b f p) (ix3 b f ⟨p.val, h⟩) (fun a => match a with
      | ⟨0, _⟩ => by show b.val = 0 + b.val * (0 + 1); omega
      | ⟨1, _⟩ => by show f.val = 0 + f.val * (0 + 1); omega
      | ⟨2, _⟩ => by show p.val = 0 + p.val * (0 + 1); omega)).trans ?_
    exact truncf_apply _ bitsLt_bf16_f32 _
  · -- a slot past the last point reads the padding value, the integer zero converted: the real zero
    rw [dif_neg h]
    refine (pad_apply_of_not_inside _ _ _ _ _ pads_S8x64x100000_S8x64x102400_000_000_024000 h_S_ (ix3 b f p) (2 : Fin 3) ?_).trans ?_
    · show ¬(0 ≤ p.val ∧ (p.val - 0) % (0 + 1) = 0 ∧ (p.val - 0) / (0 + 1) < 100000)
      rintro ⟨_, _, h3⟩
      rw [Nat.sub_zero, Nat.zero_add, Nat.div_one] at h3
      exact h h3
    · exact sitofp_zero (φ := .bf16)

/-- The second result (%19) when the call is entered. -/
theorem V_coords (c : Dev nD) :
    V m c main_v19 = ncK (m ((c.tc : Thread nD τ).loc main_arg1)) :=
  V_v19_eq m c

end Cert.KernelIdeal.HostSide

end
-- ==== Proof.VoxelSpec.lean ====
/-
  Voxel averaging, as one function of the point features and the points' voxel words.

  A cloud `b` has 100000 points; point `n` carries 64 channels `feat b f n` and a voxel word
  `idx b n`.  For a voxel word `v` the sum `vsum` adds channel `f` over the points of cloud `b` whose
  word is `v`, the count `vcnt` counts those points, and the average `vavg` is the sum divided by
  the count, the count replaced by one where no point lands.  The result grid lists the averages
  with the voxel's three coordinates `(x, y, z)` flattened to the word `(x * 32 + y) * 32 + z`.
-/
import Idealize.ShloMosaic.PureOps.Ideal
import Idealize.ShloMosaic.Lib.ValueIdx

noncomputable section

namespace Cert.Voxel

open Idealize.ShloMosaic Idealize.ShloMosaic.ValueIdx

/-- The point features: cloud, channel, point. -/
abbrev SFeat : Shape := ⟨3, ![8, 64, 100000]⟩
/-- The voxel words: cloud, point. -/
abbrev SIdx : Shape := ⟨2, ![8, 100000]⟩
/-- The result: cloud, channel, and the voxel's three coordinates. -/
abbrev SGrid : Shape := ⟨5, ![8, 64, 32, 32, 32]⟩

/-- Channel `f` summed over the points of cloud `b` whose voxel word is `v`. -/
def vsum (idx : SIdx.Idx → BitVec 32) (feat : SFeat.Idx → EReal) (b : Fin 8) (v : BitVec 32) (f : Fin 64) : EReal :=
  ∑ n : Fin 100000, if idx (ix2 b n) = v then feat (ix3 b f n) else 0

/-- The number of points of cloud `b` whose voxel word is `v`. -/
def vcnt (idx : SIdx.Idx → BitVec 32) (b : Fin 8) (v : BitVec 32) : EReal :=
  ∑ n : Fin 100000, if idx (ix2 b n) = v then (1 : EReal) else 0

/-- The average of channel `f` over the points of cloud `b` in voxel `v`; an empty voxel divides by one. -/
def vavg (idx : SIdx.Idx → BitVec 32) (feat : SFeat.Idx → EReal) (b : Fin 8) (v : BitVec 32) (f : Fin 64) : EReal :=
  Ideal.div (vsum idx feat b v f) (max (vcnt idx b v) 1)

/-- The voxel word of the coordinates `(x, y, z)`. -/
def vword (x y z : Fin 32) : BitVec 32 := BitVec.ofNat 32 ((x.val * 32 + y.val) * 32 + z.val)

/-- The result grid: at cloud `b`, channel `f` and voxel `(x, y, z)`, that voxel's average. -/
def grid (idx : SIdx.Idx → BitVec 32) (feat : SFeat.Idx → EReal) : SGrid.Idx → EReal := fun i =>
  vavg idx feat (i 0) (vword (i 2) (i 3) (i 4)) (i 1)

end Cert.Voxel

end
-- ==== Proof.VoxelSums.lean ====
/-
  Finite sums over the points of a cloud, cut into blocks and padded.

  The kernel walks a cloud's 100000 points in 25 blocks of 4096, the tail of the last block padded
  (102400 = 25 * 4096 slots).  `psum` is the one-hot sum over the first `L` slots; one more block adds
  that block's sum; all 25 blocks give the sum over the cloud's real points when no padding slot carries
  the word asked for.  The reference walks all 8 clouds as one list of 800000 points; a sum over that
  list is the double sum over clouds and points.
-/
import Idealize.ShloMosaic.PureOps.Ideal
import Mathlib.Algebra.BigOperators.Fin
import Mathlib.Algebra.BigOperators.Group.Finset.Basic
import Mathlib.Data.Fintype.BigOperators
import Mathlib.Logic.Equiv.Fin.Basic

noncomputable section

namespace Cert.Voxel

/-- The one-hot sum over the first `L` of the 102400 padded slots: the values of the slots whose word is `w`. -/
def psum (idxp : Fin 102400 → BitVec 32) (val : Fin 102400 → EReal) (w : BitVec 32) (L : ℕ) : EReal :=
  ∑ p : Fin 102400, if p.val < L then (if idxp p = w then val p else 0) else 0

/-- Extension by zero of a function on `Fin N` to all naturals. -/
def ext0 {N : ℕ} (f : Fin N → EReal) (i : ℕ) : EReal := if h : i < N then f ⟨i, h⟩ else 0

/-- A sum over `Fin N` cut off at `L ≤ N` is the sum of the zero-extension over the first `L` naturals. -/
theorem sum_lt_eq_range {N : ℕ} (f : Fin N → EReal) (L : ℕ) (hL : L ≤ N) :
    (∑ p : Fin N, if p.val < L then f p else 0) = ∑ i ∈ Finset.range L, ext0 f i := by
  rw [Finset.sum_fin_eq_sum_range]
  obtain ⟨M, rfl⟩ := Nat.exists_eq_add_of_le hL
  rw [Finset.sum_range_add]
  have h2 : (∑ x ∈ Finset.range M,
      (if h : L + x < L + M then (if (⟨L + x, h⟩ : Fin (L + M)).val < L then f ⟨L + x, h⟩ else 0) else 0)) = 0 := by
    apply Finset.sum_eq_zero
    intro x hx
    have hx' := Finset.mem_range.mp hx
    rw [dif_pos (by omega), if_neg (by simp)]
  rw [h2, add_zero]
  apply Finset.sum_congr rfl
  intro i hi
  have hi' := Finset.mem_range.mp hi
  rw [dif_pos (by omega), if_pos (by simpa using hi')]
  simp only [ext0]
  rw [dif_pos (by omega)]

theorem psum_zero (idxp : Fin 102400 → BitVec 32) (val : Fin 102400 → EReal) (w : BitVec 32) :
    psum idxp val w 0 = 0 := by
  unfold psum
  apply Finset.sum_eq_zero
  intro p _
  rw [if_neg (Nat.not_lt_zero _)]

/-- One more block of 4096 slots adds that block's one-hot sum. -/
theorem psum_step (idxp : Fin 102400 → BitVec 32) (val : Fin 102400 → EReal) (w : BitVec 32) (n : ℕ) (hn : n < 25) :
    psum idxp val w ((n + 1) * 4096)
      = psum idxp val w (n * 4096)
        + ∑ k : Fin 4096, if idxp ⟨n * 4096 + k.val, by have := k.isLt; omega⟩ = w
            then val ⟨n * 4096 + k.val, by have := k.isLt; omega⟩ else 0 := by
  have h1 : (n + 1) * 4096 ≤ 102400 := by omega
  have h0 : n * 4096 ≤ 102400 := by omega
  unfold psum
  rw [sum_lt_eq_range (fun p => if idxp p = w then val p else 0) _ h1,
    sum_lt_eq_range (fun p => if idxp p = w then val p else 0) _ h0,
    show (n + 1) * 4096 = n * 4096 + 4096 by ring, Finset.sum_range_add]
  congr 1
  rw [← Fin.sum_univ_eq_sum_range (fun x => ext0 (fun p => if idxp p = w then val p else 0) (n * 4096 + x)) 4096]
  apply Finset.sum_congr rfl
  intro k _
  have hk := k.isLt
  simp only [ext0]
  rw [dif_pos (by omega)]

/-- All 25 blocks: when the first 100000 slots carry the cloud's words and values and no later slot carries `w`,
    the one-hot sum over all slots is the one-hot sum over the cloud's points. -/
theorem psum_full (idxp : Fin 102400 → BitVec 32) (val : Fin 102400 → EReal) (w : BitVec 32)
    (idx : Fin 100000 → BitVec 32) (v : Fin 100000 → EReal)
    (hlo : ∀ (p : Fin 102400) (h : p.val < 100000), idxp p = idx ⟨p.val, h⟩ ∧ val p = v ⟨p.val, h⟩)
    (hpad : ∀ p : Fin 102400, 100000 ≤ p.val → idxp p ≠ w) :
    psum idxp val w (25 * 4096) = ∑ n : Fin 100000, if idx n = w then v n else 0 := by
  unfold psum
  have hall : (∑ p : Fin 102400, if p.val < 25 * 4096 then (if idxp p = w then val p else 0) else 0)
      = ∑ p : Fin (100000 + 2400), if idxp p = w then val p else 0 := by
    apply Finset.sum_congr rfl
    intro p _
    have := p.isLt
    rw [if_pos (by omega)]
  rw [hall, Fin.sum_trunc]
  · apply Finset.sum_congr rfl
    intro n _
    obtain ⟨h1, h2⟩ := hlo (Fin.castAdd 2400 n) n.isLt
    rw [h1, h2]
    rfl
  · intro j
    rw [if_neg (hpad (Fin.natAdd 100000 j) (by simp))]

/-- A sum over the flat list of 8 * 100000 points is the double sum over clouds and their points. -/
theorem sum_flat (g : Fin 8 → Fin 100000 → EReal) :
    (∑ p : Fin 800000, g ⟨p.val / 100000, by have := p.isLt; omega⟩ ⟨p.val % 100000, Nat.mod_lt _ (by norm_num)⟩)
      = ∑ b : Fin 8, ∑ n : Fin 100000, g b n := by
  rw [← Fintype.sum_prod_type' g]
  exact Fintype.sum_equiv (finProdFinEquiv (m := 8) (n := 100000)).symm _ _ (fun p => rfl)

/-- A one-hot double sum keeps one cloud: if only cloud `b`'s points can satisfy the test, the double sum is that cloud's. -/
theorem sum_one_cloud (b : Fin 8) (P : Fin 8 → Fin 100000 → Prop) [∀ b' n, Decidable (P b' n)]
    (g : Fin 8 → Fin 100000 → EReal) (h : ∀ b' n, P b' n → b' = b) :
    (∑ b' : Fin 8, ∑ n : Fin 100000, if P b' n then g b' n else 0) = ∑ n : Fin 100000, if P b n then g b n else 0 := by
  apply Fintype.sum_eq_single b
  intro b' hne
  apply Finset.sum_eq_zero
  intro n _
  rw [if_neg (fun hp => hne (h b' n hp))]

end Cert.Voxel

end
-- ==== Proof.KernelValue.lean ====
/-
  The kernel's first result is the grid of voxel averages.

  The pallas_call walks the grid (cloud, voxel tile, point block): 8 clouds, 16 tiles of 2048 voxels, 25
  blocks of 4096 padded point slots.  Along the 25 blocks of one (cloud, tile) the two accumulators hold,
  after block `n`, the one-hot sums over the first `(n + 1) * 4096` slots of the cloud: channel sums and
  counts of the slots whose voxel word is the row's (by induction on the grid point: the first block
  starts from the cleared accumulators, every later block adds to what the block before left).  After
  the last block the sums run over all 102400 slots; the padding slots carry the word 32768, which is no
  row's word, and the real slots carry the cloud's words and features, so the sums are the cloud's.  The
  last block stores their quotient, which the pipeline writes back as block (cloud, tile) of the call's
  result; the 128 written blocks tile the result.  The host then reshapes the 32768 voxels of a cloud
  to 32 x 32 x 32 and moves the channel axis forward.
-/
import proofs.«151645_j89756226552188_1_alg».proof.Proof.Gen.KernelIdeal.Frame
import proofs.«151645_j89756226552188_1_alg».proof.Proof.KernelPieces
import proofs.«151645_j89756226552188_1_alg».proof.Proof.KernelPayload
import proofs.«151645_j89756226552188_1_alg».proof.Proof.KernelHost
import proofs.«151645_j89756226552188_1_alg».proof.Proof.VoxelSpec
import proofs.«151645_j89756226552188_1_alg».proof.Proof.VoxelSums
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pieces Cert.KernelIdeal.Payload Cert.KernelIdeal.HostSide
open Cert.Voxel

variable (m : (ℓ : Loc nD τ sig) → Buf (Elt Ideal) ℓ) (ρ : Dev nD → PrngReg)

/-! ## The grid: point `t` is block `t % 25` of tile `t / 25 % 16` of cloud `t / 400` -/

theorem N_eq : cfg0.N = 3200 := N_0

theorem coords_facts : ∀ t : Fin cfg0.N, (grid0.coords t 0).val = t.val / 400 ∧ (grid0.coords t 1).val = t.val / 25 % 16
    ∧ (grid0.coords t 2).val = t.val % 25 :=
  (by decide +kernel : ∀ t : Fin grid0.N, (grid0.coords t 0).val = t.val / 400 ∧ (grid0.coords t 1).val = t.val / 25 % 16
    ∧ (grid0.coords t 2).val = t.val % 25)

/-- The three index maps over the grid: both inputs move with (cloud, block), the output with (cloud, tile). -/
theorem index_facts : ∀ t : Fin cfg0.N,
    win0_0.index t (0 : Fin 3) = t.val / 400 ∧ win0_0.index t (1 : Fin 3) = 0 ∧ win0_0.index t (2 : Fin 3) = t.val % 25
    ∧ win0_1.index t (0 : Fin 3) = t.val / 400 ∧ win0_1.index t (1 : Fin 3) = 0 ∧ win0_1.index t (2 : Fin 3) = t.val % 25
    ∧ win0_2.index t (0 : Fin 3) = t.val / 400 ∧ win0_2.index t (1 : Fin 3) = t.val / 25 % 16 ∧ win0_2.index t (2 : Fin 3) = 0 :=
  (by decide +kernel : ∀ t : Fin grid0.N,
    win0_0.index t (0 : Fin 3) = t.val / 400 ∧ win0_0.index t (1 : Fin 3) = 0 ∧ win0_0.index t (2 : Fin 3) = t.val % 25
    ∧ win0_1.index t (0 : Fin 3) = t.val / 400 ∧ win0_1.index t (1 : Fin 3) = 0 ∧ win0_1.index t (2 : Fin 3) = t.val % 25
    ∧ win0_2.index t (0 : Fin 3) = t.val / 400 ∧ win0_2.index t (1 : Fin 3) = t.val / 25 % 16 ∧ win0_2.index t (2 : Fin 3) = 0)

/-- The cloud of grid point `t`. -/
def cloudOf (t : Fin cfg0.N) : Fin 8 := ⟨t.val / 400, by have := t.isLt; have := N_eq; omega⟩

/-- The voxel word of row `r` of grid point `t`'s tile. -/
def tileWord (t : Fin cfg0.N) (r : Fin 2048) : BitVec 32 := BitVec.ofNat 32 (t.val / 25 % 16 * 2048 + r.val)

theorem rowWord_eq (t : Fin cfg0.N) (r : Fin 2048) : rowWord (grid0.coords t) r = tileWord t r := by
  unfold rowWord tileWord; rw [(coords_facts t).2.1]

/-! ## The padded words and features of a cloud, and the blocks the pipeline stages of them -/

/-- Cloud `b`'s 102400 voxel-word slots as the call finds them. -/
def wordsP (c : Dev nD) (b : Fin 8) : Fin 102400 → BitVec 32 := fun p =>
  (V m c main_v35 : S8x1x102400.Idx → BitVec 32) (ix3 b (0 : Fin 1) p)

/-- Channel `f` of cloud `b`'s 102400 feature slots as the call finds them. -/
def featsP (c : Dev nD) (b : Fin 8) (f : Fin 64) : Fin 102400 → EReal := fun p =>
  (V m c main_v37 : S8x64x102400.Idx → EReal) (ix3 b f p)

/-- The words block and the features block of grid point `t`, at their literal types. -/
abbrev wblk (c : Dev nD) (t : Fin cfg0.N) : Vec Ideal S1x1x4096 .i32 := iblk m c 0 t
abbrev fblk (c : Dev nD) (t : Fin cfg0.N) : Vec Ideal S1x64x4096 .bf16 := iblk m c 1 t

theorem slot_lt (t : Fin cfg0.N) (k : Fin 4096) : t.val % 25 * 4096 + k.val < 102400 := by
  have := k.isLt; have := Nat.mod_lt t.val (show 0 < 25 by norm_num); omega

/-- Slot `k` of the words block of point `t` is slot `(t % 25) * 4096 + k` of its cloud. -/
theorem wblk_apply (c : Dev nD) (t : Fin cfg0.N) (k : Fin 4096) :
    wblk m c t (ix3 (0 : Fin 1) (0 : Fin 1) k) = wordsP m c (cloudOf t) ⟨t.val % 25 * 4096 + k.val, slot_lt t k⟩ := by
  obtain ⟨e0, e1, e2, -⟩ := index_facts t
  unfold wblk iblk wordsP
  rw [View.read_apply]
  show V m c main_v35 _ = V m c main_v35 _
  congr 1
  funext a
  apply Fin.ext
  match a with
  | ⟨0, _⟩ => show win0_0.index t (0 : Fin 3) * 1 + 1 * 0 = t.val / 400; omega
  | ⟨1, _⟩ => show win0_0.index t (1 : Fin 3) * 1 + 1 * 0 = 0; omega
  | ⟨2, _⟩ => show win0_0.index t (2 : Fin 3) * 4096 + 1 * k.val = t.val % 25 * 4096 + k.val; omega

/-- Slot `k` of channel `f` of the features block of point `t` is slot `(t % 25) * 4096 + k` of its cloud. -/
theorem fblk_apply (c : Dev nD) (t : Fin cfg0.N) (f : Fin 64) (k : Fin 4096) :
    (fblk m c t (ix3 (0 : Fin 1) f k) : EReal) = featsP m c (cloudOf t) f ⟨t.val % 25 * 4096 + k.val, slot_lt t k⟩ := by
  obtain ⟨-, -, -, e0, e1, e2, -⟩ := index_facts t
  unfold fblk iblk featsP
  rw [View.read_apply]
  show V m c main_v37 _ = V m c main_v37 _
  congr 1
  funext a
  apply Fin.ext
  match a with
  | ⟨0, _⟩ => show win0_1.index t (0 : Fin 3) * 1 + 1 * 0 = t.val / 400; omega
  | ⟨1, _⟩ => show win0_1.index t (1 : Fin 3) * 64 + 1 * f.val = f.val; omega
  | ⟨2, _⟩ => show win0_1.index t (2 : Fin 3) * 4096 + 1 * k.val = t.val % 25 * 4096 + k.val; omega

/-! ## One grid step: the block's one-hot sums are the next 4096 slots' -/

/-- The constant-one values, for the counts. -/
def ones : Fin 102400 → EReal := fun _ => 1

/-- The step's feature sum over its block is the one-hot sum over the block's slots of the cloud. -/
theorem blk_sum (c : Dev nD) (t : Fin cfg0.N) (r : Fin 2048) (f : Fin 64) :
    (∑ k : Fin 4096, if wblk m c t (ix3 (0 : Fin 1) (0 : Fin 1) k) = rowWord (grid0.coords t) r
        then (fblk m c t (ix3 (0 : Fin 1) f k) : EReal) else 0)
      = ∑ k : Fin 4096, if wordsP m c (cloudOf t) ⟨t.val % 25 * 4096 + k.val, slot_lt t k⟩ = tileWord t r
          then featsP m c (cloudOf t) f ⟨t.val % 25 * 4096 + k.val, slot_lt t k⟩ else 0 :=
  Finset.sum_congr rfl fun k _ => by rw [wblk_apply, fblk_apply, rowWord_eq]

/-- The step's count over its block likewise. -/
theorem blk_cnt (c : Dev nD) (t : Fin cfg0.N) (r : Fin 2048) :
    (∑ k : Fin 4096, if wblk m c t (ix3 (0 : Fin 1) (0 : Fin 1) k) = rowWord (grid0.coords t) r then (1 : EReal) else 0)
      = ∑ k : Fin 4096, if wordsP m c (cloudOf t) ⟨t.val % 25 * 4096 + k.val, slot_lt t k⟩ = tileWord t r
          then ones ⟨t.val % 25 * 4096 + k.val, slot_lt t k⟩ else 0 :=
  Finset.sum_congr rfl fun k _ => by rw [wblk_apply, rowWord_eq]; rfl

/-- Adding the step's feature sum to the sum over the blocks before it gives the sum up to and including this block. -/
theorem step_sum (c : Dev nD) (t : Fin cfg0.N) (r : Fin 2048) (f : Fin 64) (prev : EReal)
    (hprev : prev = psum (wordsP m c (cloudOf t)) (featsP m c (cloudOf t) f) (tileWord t r) (t.val % 25 * 4096)) :
    prev + (∑ k : Fin 4096, if wblk m c t (ix3 (0 : Fin 1) (0 : Fin 1) k) = rowWord (grid0.coords t) r
        then (fblk m c t (ix3 (0 : Fin 1) f k) : EReal) else 0)
      = psum (wordsP m c (cloudOf t)) (featsP m c (cloudOf t) f) (tileWord t r) ((t.val % 25 + 1) * 4096) := by
  rw [psum_step _ _ _ (t.val % 25) (Nat.mod_lt _ (by norm_num)), hprev, blk_sum]

theorem step_cnt (c : Dev nD) (t : Fin cfg0.N) (r : Fin 2048) (prev : EReal)
    (hprev : prev = psum (wordsP m c (cloudOf t)) ones (tileWord t r) (t.val % 25 * 4096)) :
    prev + (∑ k : Fin 4096, if wblk m c t (ix3 (0 : Fin 1) (0 : Fin 1) k) = rowWord (grid0.coords t) r then (1 : EReal) else 0)
      = psum (wordsP m c (cloudOf t)) ones (tileWord t r) ((t.val % 25 + 1) * 4096) := by
  rw [psum_step _ _ _ (t.val % 25) (Nat.mod_lt _ (by norm_num)), hprev, blk_cnt]

/-! ## The accumulators after every grid point -/

/-- The feature accumulator and the count accumulator after grid point `t`, read at a row. -/
abbrev sumsAt (c : Dev nD) (t : Fin cfg0.N) : Vec Ideal S2048x64 .f32 := (outsAt0 m c t.val t.isLt).2.1
abbrev cntsAt (c : Dev nD) (t : Fin cfg0.N) : Vec Ideal S2048x1 .f32 := (outsAt0 m c t.val t.isLt).2.2

/-- What the accumulators hold after point `t`: the one-hot sums over the first `(t % 25 + 1) * 4096` slots of the
    point's cloud, for the point's tile. -/
def AccInv (c : Dev nD) (t : Fin cfg0.N) : Prop :=
  (∀ (r : Fin 2048) (f : Fin 64), (sumsAt m c t (ix2 r f) : EReal)
      = psum (wordsP m c (cloudOf t)) (featsP m c (cloudOf t) f) (tileWord t r) ((t.val % 25 + 1) * 4096))
  ∧ (∀ r : Fin 2048, (cntsAt m c t (ix2 r (0 : Fin 1)) : EReal)
      = psum (wordsP m c (cloudOf t)) ones (tileWord t r) ((t.val % 25 + 1) * 4096))

/-- First block of a tile: the accumulators start from the cleared values. -/
theorem inv_first (c : Dev nD) (t : Fin cfg0.N) (h0 : t.val % 25 = 0) : AccInv m c t := by
  have h1 : ¬t.val % 25 = 24 := by omega
  constructor
  · intro r f
    unfold sumsAt
    rw [outsAt0_A m c t h0 h1]
    dsimp only
    refine (congrFun (sumsA (F := Ideal) c (grid0.coords t) (ms0_0 t) (hs0_0 t) (ms0_1 t) (hs0_1 t) (ms0_2 t) (hs0_2 t)
      scM0_0 (Memref.isWhole_whole _) scM0_1 (Memref.isWhole_whole _) ((hcond0_0 t).mpr h0) (fun h => h1 ((hcond0_1 t).mp h))
      (iblk m c 0 t) (iblk m c 1 t)) (ix2 r f)).trans ?_
    refine (pay5_apply (grid0.coords t) (wblk m c t) (fblk m c t) (k0_pay2 (F := Ideal)) r f).trans ?_
    exact step_sum m c t r f _ (by rw [pay2_apply, h0, Nat.zero_mul, psum_zero])
  · intro r
    unfold cntsAt
    rw [outsAt0_A m c t h0 h1]
    dsimp only
    refine (congrFun (cntsA (F := Ideal) c (grid0.coords t) (ms0_0 t) (hs0_0 t) (ms0_1 t) (hs0_1 t) (ms0_2 t) (hs0_2 t)
      scM0_0 (Memref.isWhole_whole _) scM0_1 (Memref.isWhole_whole _) ((hcond0_0 t).mpr h0) (fun h => h1 ((hcond0_1 t).mp h))
      (iblk m c 0 t) (iblk m c 1 t)) (ix2 r (0 : Fin 1))).trans ?_
    refine (pay6_apply (grid0.coords t) (wblk m c t) (fblk m c t) (k0_pay3 (F := Ideal)) r).trans ?_
    exact step_cnt m c t r _ (by rw [pay3_apply, h0, Nat.zero_mul, psum_zero])

/-- The grid point before `t`. -/
abbrev prevPt (t : Fin cfg0.N) : Fin cfg0.N := ⟨t.val - 1, Nat.lt_of_le_of_lt (Nat.sub_le _ _) t.isLt⟩

/-- A point that is not the first block of its tile continues the point before: same cloud, same tile, next block. -/
theorem prev_facts (t : Fin cfg0.N) (h0 : ¬t.val % 25 = 0) :
    cloudOf (prevPt t) = cloudOf t ∧ (∀ r, tileWord (prevPt t) r = tileWord t r) ∧ (prevPt t).val % 25 + 1 = t.val % 25 := by
  refine ⟨Fin.ext ?_, fun r => ?_, ?_⟩
  · show (t.val - 1) / 400 = t.val / 400; omega
  · unfold tileWord
    rw [show (prevPt t).val / 25 % 16 = t.val / 25 % 16 from by show (t.val - 1) / 25 % 16 = t.val / 25 % 16; omega]
  · show (t.val - 1) % 25 + 1 = t.val % 25; omega

/-- A later block of a tile: the accumulators add the block's sums to what the block before left. -/
theorem inv_later (c : Dev nD) (t : Fin cfg0.N) (h0 : ¬t.val % 25 = 0) (ih : AccInv m c (prevPt t)) : AccInv m c t := by
  obtain ⟨hb, hw, hn⟩ := prev_facts t h0
  by_cases h1 : t.val % 25 = 24
  · constructor
    · intro r f
      unfold sumsAt
      rw [outsAt0_C m c t h0 h1]
      dsimp only
      refine (congrFun (sumsC (F := Ideal) c (grid0.coords t) (ms0_0 t) (hs0_0 t) (ms0_1 t) (hs0_1 t) (ms0_2 t) (hs0_2 t)
        scM0_0 (Memref.isWhole_whole _) scM0_1 (Memref.isWhole_whole _) (fun h => h0 ((hcond0_0 t).mp h)) ((hcond0_1 t).mpr h1)
        (iblk m c 0 t) (iblk m c 1 t) (sumsAt m c (prevPt t)) (cntsAt m c (prevPt t))) (ix2 r f)).trans ?_
      refine (pay5_apply (grid0.coords t) (wblk m c t) (fblk m c t) (sumsAt m c (prevPt t)) r f).trans ?_
      exact step_sum m c t r f _ (by rw [ih.1 r f, hb, hw, hn])
    · intro r
      unfold cntsAt
      rw [outsAt0_C m c t h0 h1]
      dsimp only
      refine (congrFun (cntsC (F := Ideal) c (grid0.coords t) (ms0_0 t) (hs0_0 t) (ms0_1 t) (hs0_1 t) (ms0_2 t) (hs0_2 t)
        scM0_0 (Memref.isWhole_whole _) scM0_1 (Memref.isWhole_whole _) (fun h => h0 ((hcond0_0 t).mp h)) ((hcond0_1 t).mpr h1)
        (iblk m c 0 t) (iblk m c 1 t) (sumsAt m c (prevPt t)) (cntsAt m c (prevPt t))) (ix2 r (0 : Fin 1))).trans ?_
      refine (pay6_apply (grid0.coords t) (wblk m c t) (fblk m c t) (cntsAt m c (prevPt t)) r).trans ?_
      exact step_cnt m c t r _ (by rw [ih.2 r, hb, hw, hn])
  · constructor
    · intro r f
      unfold sumsAt
      rw [outsAt0_B m c t h0 h1]
      dsimp only
      refine (congrFun (sumsB (F := Ideal) c (grid0.coords t) (ms0_0 t) (hs0_0 t) (ms0_1 t) (hs0_1 t) (ms0_2 t) (hs0_2 t)
        scM0_0 (Memref.isWhole_whole _) scM0_1 (Memref.isWhole_whole _) (fun h => h0 ((hcond0_0 t).mp h)) (fun h => h1 ((hcond0_1 t).mp h))
        (iblk m c 0 t) (iblk m c 1 t) (sumsAt m c (prevPt t)) (cntsAt m c (prevPt t))) (ix2 r f)).trans ?_
      refine (pay5_apply (grid0.coords t) (wblk m c t) (fblk m c t) (sumsAt m c (prevPt t)) r f).trans ?_
      exact step_sum m c t r f _ (by rw [ih.1 r f, hb, hw, hn])
    · intro r
      unfold cntsAt
      rw [outsAt0_B m c t h0 h1]
      dsimp only
      refine (congrFun (cntsB (F := Ideal) c (grid0.coords t) (ms0_0 t) (hs0_0 t) (ms0_1 t) (hs0_1 t) (ms0_2 t) (hs0_2 t)
        scM0_0 (Memref.isWhole_whole _) scM0_1 (Memref.isWhole_whole _) (fun h => h0 ((hcond0_0 t).mp h)) (fun h => h1 ((hcond0_1 t).mp h))
        (iblk m c 0 t) (iblk m c 1 t) (sumsAt m c (prevPt t)) (cntsAt m c (prevPt t))) (ix2 r (0 : Fin 1))).trans ?_
      refine (pay6_apply (grid0.coords t) (wblk m c t) (fblk m c t) (cntsAt m c (prevPt t)) r).trans ?_
      exact step_cnt m c t r _ (by rw [ih.2 r, hb, hw, hn])

/-- The accumulators after every grid point, by induction on the point. -/
theorem acc_inv (c : Dev nD) : ∀ (n : ℕ) (hn : n < cfg0.N), AccInv m c ⟨n, hn⟩
  | 0, hn => inv_first m c ⟨0, hn⟩ rfl
  | n + 1, hn => by
    by_cases h0 : (n + 1) % 25 = 0
    · exact inv_first m c ⟨n + 1, hn⟩ h0
    · exact inv_later m c ⟨n + 1, hn⟩ h0 (acc_inv c n (Nat.lt_of_succ_lt hn))

/-! ## The last block of a tile stores the averages -/

/-- After the last block of a tile the output block holds, at row `r` and channel `f`, the accumulated sum divided by
    the accumulated count clamped below by one. -/
theorem out_last (c : Dev nD) (t : Fin cfg0.N) (h1 : t.val % 25 = 24) (r : Fin 2048) (f : Fin 64) :
    (((outsAt0 m c t.val t.isLt).1 : Vec Ideal S1x2048x64 .f32) (ix3 (0 : Fin 1) r f) : EReal)
      = Ideal.div (sumsAt m c t (ix2 r f)) (max (cntsAt m c t (ix2 r (0 : Fin 1))) (1 : EReal)) := by
  have h0 : ¬t.val % 25 = 0 := by omega
  unfold sumsAt cntsAt
  rw [outsAt0_C m c t h0 h1]
  dsimp only
  refine (congrFun (outC (F := Ideal) c (grid0.coords t) (ms0_0 t) (hs0_0 t) (ms0_1 t) (hs0_1 t) (ms0_2 t) (hs0_2 t)
        scM0_0 (Memref.isWhole_whole _) scM0_1 (Memref.isWhole_whole _) (fun h => h0 ((hcond0_0 t).mp h)) ((hcond0_1 t).mpr h1)
        (iblk m c 0 t) (iblk m c 1 t) (sumsAt m c (prevPt t)) (cntsAt m c (prevPt t))) (ix3 (0 : Fin 1) r f)).trans ?_
  refine (pay1_apply _ _ r f).trans ?_
  rw [congrFun (sumsC (F := Ideal) c (grid0.coords t) (ms0_0 t) (hs0_0 t) (ms0_1 t) (hs0_1 t) (ms0_2 t) (hs0_2 t)
        scM0_0 (Memref.isWhole_whole _) scM0_1 (Memref.isWhole_whole _) (fun h => h0 ((hcond0_0 t).mp h)) ((hcond0_1 t).mpr h1)
        (iblk m c 0 t) (iblk m c 1 t) (sumsAt m c (prevPt t)) (cntsAt m c (prevPt t))) (ix2 r f),
    congrFun (cntsC (F := Ideal) c (grid0.coords t) (ms0_0 t) (hs0_0 t) (ms0_1 t) (hs0_1 t) (ms0_2 t) (hs0_2 t)
        scM0_0 (Memref.isWhole_whole _) scM0_1 (Memref.isWhole_whole _) (fun h => h0 ((hcond0_0 t).mp h)) ((hcond0_1 t).mpr h1)
        (iblk m c 0 t) (iblk m c 1 t) (sumsAt m c (prevPt t)) (cntsAt m c (prevPt t))) (ix2 r (0 : Fin 1))]

/-! ## All 25 blocks of a tile: the cloud's own sums -/

/-- The features argument and the voxel words the host computes from the coordinates argument. -/
abbrev feat (c : Dev nD) : S8x64x100000.Idx → EReal := m ((c.tc : Thread nD τ).loc main_arg0)
abbrev words (c : Dev nD) : S8x100000.Idx → BitVec 32 := idxK (m ((c.tc : Thread nD τ).loc main_arg1))

theorem wordsP_lo (c : Dev nD) (b : Fin 8) (p : Fin 102400) (h : p.val < 100000) :
    wordsP m c b p = words m c (ix2 b ⟨p.val, h⟩) := by
  unfold wordsP; rw [V_words, dif_pos h]

theorem wordsP_hi (c : Dev nD) (b : Fin 8) (p : Fin 102400) (h : 100000 ≤ p.val) : wordsP m c b p = 32768#32 := by
  unfold wordsP; rw [V_words, dif_neg (by omega)]

theorem featsP_lo (c : Dev nD) (b : Fin 8) (f : Fin 64) (p : Fin 102400) (h : p.val < 100000) :
    featsP m c b f p = feat m c (ix3 b f ⟨p.val, h⟩) := by
  unfold featsP; rw [V_feats, dif_pos h]

/-- The padding word 32768 is no row's voxel word: rows stand for words below 16 * 2048 = 32768. -/
theorem pad_ne (t : Fin cfg0.N) (r : Fin 2048) : (32768#32 : BitVec 32) ≠ tileWord t r := by
  intro h
  have h2 := congrArg BitVec.toNat h
  unfold tileWord at h2
  simp only [BitVec.toNat_ofNat, Nat.reducePow] at h2
  have := r.isLt
  omega

theorem full_sum (c : Dev nD) (t : Fin cfg0.N) (r : Fin 2048) (f : Fin 64) :
    psum (wordsP m c (cloudOf t)) (featsP m c (cloudOf t) f) (tileWord t r) (25 * 4096)
      = vsum (words m c) (feat m c) (cloudOf t) (tileWord t r) f := by
  unfold vsum
  exact psum_full _ _ _ (fun n => words m c (ix2 (cloudOf t) n)) (fun n => feat m c (ix3 (cloudOf t) f n))
    (fun p h => ⟨wordsP_lo m c _ p h, featsP_lo m c _ f p h⟩)
    (fun p h e => pad_ne t r ((wordsP_hi m c _ p h).symm.trans e))

theorem full_cnt (c : Dev nD) (t : Fin cfg0.N) (r : Fin 2048) :
    psum (wordsP m c (cloudOf t)) ones (tileWord t r) (25 * 4096) = vcnt (words m c) (cloudOf t) (tileWord t r) := by
  unfold vcnt
  exact psum_full _ _ _ (fun n => words m c (ix2 (cloudOf t) n)) (fun _ => (1 : EReal))
    (fun p h => ⟨wordsP_lo m c _ p h, rfl⟩)
    (fun p h e => pad_ne t r ((wordsP_hi m c _ p h).symm.trans e))

/-! ## The call's result array -/

/-- The call's result as one function of the arguments: at cloud `b`, voxel `v`, channel `f` the voxel's average. -/
def G3 (c : Dev nD) : S8x32768x64.Idx → EReal := fun j =>
  vavg (words m c) (feat m c) (j 0) (BitVec.ofNat 32 (j 1).val) (j 2)

/-- The block the last step of tile `t / 25 % 16` of cloud `t / 400` leaves is that tile's rows of `G3`. -/
theorem blk_val (c : Dev nD) (t : Fin cfg0.N) (h1 : t.val % 25 = 24) (r : Fin 2048) (f : Fin 64) :
    (((outsAt0 m c t.val t.isLt).1 : Vec Ideal S1x2048x64 .f32) (ix3 (0 : Fin 1) r f) : EReal)
      = vavg (words m c) (feat m c) (cloudOf t) (tileWord t r) f := by
  rw [out_last m c t h1 r f, ((acc_inv m c t.val t.isLt).1 r f), ((acc_inv m c t.val t.isLt).2 r), h1]
  unfold vavg
  rw [← full_sum m c t r f, ← full_cnt m c t r]

set_option maxHeartbeats 1000000 in
theorem flushed_eq (c : Dev nD) (t : Fin cfg0.N) (hf : (cfg0.win 2).flush t = true) :
    (dats m 0 c).flushed 2 t = ((cfg0.win 2).blk t).view.read (Elt Ideal) (G3 m c) := by
  have h1 : t.val % 25 = 24 := (flush0_2 t).mp hf
  obtain ⟨-, -, -, -, -, -, e0, e1, e2⟩ := index_facts t
  show (cfg0.win 2).cut (grid0.coords t) ((dats m 0 c).after 2 t) = _
  rw [after0_2]
  funext j
  -- the write-back moves the whole block: entry `j` of what is written is entry `j` of the block,
  have hL : (cfg0.win 2).cut (grid0.coords t) (outsAt0 m c t.val t.isLt).1 j
      = (outsAt0 m c t.val t.isLt).1 ((cfg0.win 2).xinj (grid0.coords t) j) := rfl
  -- and reading `G3` through the block's rectangle reads it at the block's offset plus `j`
  rw [hL, View.read_apply]
  refine Eq.trans ?_ (cast_eq _ _).symm
  let y : S1x2048x64.Idx := (cfg0.win 2).xinj (grid0.coords t) j
  have hy : y = ix3 (0 : Fin 1) (y 1) (y 2) := funext fun a => match a with
    | ⟨0, _⟩ => Fin.ext (by have h : (y 0).val < 1 := (y 0).isLt; show (y 0).val = 0; omega)
    | ⟨1, _⟩ => rfl
    | ⟨2, _⟩ => rfl
  have hblk : ((outsAt0 m c t.val t.isLt).1 : Vec Ideal S1x2048x64 .f32) y
      = vavg (words m c) (feat m c) (cloudOf t) (tileWord t (y 1)) (y 2) :=
    (congrArg ((outsAt0 m c t.val t.isLt).1 : Vec Ideal S1x2048x64 .f32) hy).trans (blk_val m c t h1 (y 1) (y 2))
  refine hblk.trans ?_
  have hr : (y 1).val < 2048 := (y 1).isLt
  have h0 : (j 0).val = 0 := by have h : (y 0).val < 1 := (y 0).isLt; exact Nat.lt_one_iff.mp h
  have a0 : ((cfg0.win 2).blk t).view.emb j 0 = cloudOf t := by
    apply Fin.ext
    show win0_2.index t (0 : Fin 3) * 1 + 1 * (j 0).val = t.val / 400
    omega
  have a1 : (((cfg0.win 2).blk t).view.emb j 1).val = t.val / 25 % 16 * 2048 + (y 1).val := by
    show win0_2.index t (1 : Fin 3) * 2048 + 1 * (j 1).val = t.val / 25 % 16 * 2048 + (j 1).val
    omega
  have a2 : ((cfg0.win 2).blk t).view.emb j 2 = y 2 := by
    apply Fin.ext
    show win0_2.index t (2 : Fin 3) * 64 + 1 * (j 2).val = (j 2).val
    omega
  unfold G3 tileWord
  rw [a0, a1, a2]

/-- The 128 written blocks tile the result array: after the run it holds `G3`. -/
theorem final (c : Dev nD) : (dats m 0 c).arrAt 2 cfg0.N = G3 m c :=
  (dats m 0 c).arrAt_eq_of_cover 2 (G3 m c) (flushed_eq m c) fun i => by
    have hi0 : (i 0 : Nat) < 8 := (i 0).isLt
    have hi1 : (i 1 : Nat) < 32768 := (i 1).isLt
    have hi2 : (i 2 : Nat) < 64 := (i 2).isLt
    have hN := N_eq
    have ht : ((i 0 : Nat) * 16 + (i 1 : Nat) / 2048) * 25 + 24 < cfg0.N := by omega
    obtain ⟨-, -, -, -, -, -, e0, e1, e2⟩ := index_facts ⟨_, ht⟩
    refine ⟨⟨_, ht⟩, (flush0_2 _).mpr (by show (((i 0 : Nat) * 16 + (i 1 : Nat) / 2048) * 25 + 24) % 25 = 24; omega), ?_⟩
    show i ∈ ((View.whole main_v38).slice (win0_2.rect ⟨_, ht⟩)).set
    rw [View.set_slice_whole, Rect.mem_set_unit]
    intro a
    match a with
    | ⟨0, _⟩ =>
      show win0_2.index ⟨_, ht⟩ (0 : Fin 3) * 1 ≤ (i 0 : Nat) ∧ (i 0 : Nat) < win0_2.index ⟨_, ht⟩ (0 : Fin 3) * 1 + 1
      rw [e0]; dsimp only; omega
    | ⟨1, _⟩ =>
      show win0_2.index ⟨_, ht⟩ (1 : Fin 3) * 2048 ≤ (i 1 : Nat) ∧ (i 1 : Nat) < win0_2.index ⟨_, ht⟩ (1 : Fin 3) * 2048 + 2048
      rw [e1]; dsimp only; omega
    | ⟨2, _⟩ =>
      show win0_2.index ⟨_, ht⟩ (2 : Fin 3) * 64 ≤ (i 2 : Nat) ∧ (i 2 : Nat) < win0_2.index ⟨_, ht⟩ (2 : Fin 3) * 64 + 64
      rw [e2]; omega

/-! ## The host's last two operations and the run -/

/-- Where the result's index `(b, f, x, y, z)` reads the call's result: the transpose brings the channel last, the
    reshape flattens the voxel's coordinates. -/
abbrev srcIdx5 (i : S8x64x32x32x32.Idx) : S8x32x32x32x64.Idx := ix5 (i 0) (i 2) (i 3) (i 4) (i 1)
abbrev srcIdx3 (i : S8x64x32x32x32.Idx) : S8x32768x64.Idx :=
  ix3 (i 0) ⟨((i 2).val * 32 + (i 3).val) * 32 + (i 4).val, by
    have h2 : (i 2).val < 32 := (i 2).isLt; have h3 : (i 3).val < 32 := (i 3).isLt; have h4 : (i 4).val < 32 := (i 4).isLt; omega⟩ (i 1)

/-- The reshaped and transposed result array is the grid of voxel averages. -/
theorem tail_layout (c : Dev nD) :
    transpose S8x64x32x32x32 [0, 4, 1, 2, 3] (shapeCast S8x32x32x32x64 (G3 m c) shapeCasts_S8x32768x64_S8x32x32x32x64)
        transposes_S8x32x32x32x64_S8x64x32x32x32_0_4_1_2_3
      = grid (words m c) (feat m c) := by
  funext i
  rw [transpose_apply [0, 4, 1, 2, 3] _ transposes_S8x32x32x32x64_S8x64x32x32x32_0_4_1_2_3 i (srcIdx5 i) (fun b => match b with
    | ⟨0, _⟩ => rfl
    | ⟨1, _⟩ => rfl
    | ⟨2, _⟩ => rfl
    | ⟨3, _⟩ => rfl
    | ⟨4, _⟩ => rfl)]
  rw [shapeCast_apply (G3 m c) shapeCasts_S8x32768x64_S8x32x32x32x64 (srcIdx5 i) (srcIdx3 i)
    (by rewrite [Shape.rowMajor_val_three, Shape.rowMajor_val_five]
        have h2 : (i 2).val < 32 := (i 2).isLt; have h3 : (i 3).val < 32 := (i 3).isLt; have h4 : (i 4).val < 32 := (i 4).isLt
        show ((i 0).val * 32768 + (((i 2).val * 32 + (i 3).val) * 32 + (i 4).val)) * 64 + (i 1).val
          = ((((i 0).val * 32 + (i 2).val) * 32 + (i 3).val) * 32 + (i 4).val) * 64 + (i 1).val
        omega)]
  rfl

/-- The first result after the host's tail. -/
theorem tail_grid (c : Dev nD) :
    Pipeline.afterTail₀ cfgs (dats m) 0 (V0 m) [hostOps1] c main_v40 = grid (words m c) (feat m c) := by
  unfold Pipeline.afterTail₀
  show StableHlo.after hostOps1 _ (Proc.devRef .tc main_v40) = _
  after_results
  rw [(Pipeline.withArrays_arr spec0 launch0.win.arr_inj c _ _ 2).trans (final m c)]
  exact tail_layout m c

/-- The second result is untouched by the call and by the host's tail. -/
theorem tail_coords (c : Dev nD) :
    Pipeline.afterTail₀ cfgs (dats m) 0 (V0 m) [hostOps1] c main_v19 = ncK (m ((c.tc : Thread nD τ).loc main_arg1)) := by
  unfold Pipeline.afterTail₀
  rw [StableHlo.after_of_forall_not_mem (b := Proc.devRef .tc main_v19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v19 (by exact (by decide : ∀ w, Pipeline.arrRef spec0 w ≠ main_v19))]
  exact V_coords m c

/-- The kernel's run, read: the first result at the grid of voxel averages of the features under the voxel words of the
    coordinates, the second at the normalised coordinates, the arguments unchanged. -/
theorem run : θ_run defs (onTc (τ := τ) (main (F := Ideal))) ⟨m, fun _ => 0, ρ⟩ fun r => ∀ c : Dev nD,
      r.2.mem ((c.tc : Thread nD τ).loc main_v40) = grid (words m c) (feat m c)
      ∧ r.2.mem ((c.tc : Thread nD τ).loc main_v19) = ncK (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v40 (Pipeline.mem_restRefs_of main_v40 (by decide) (by decide))).trans (tail_grid m c),
       ((h c).2 main_v19 (Pipeline.mem_restRefs_of main_v19 (by decide) (by decide))).trans (tail_coords m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KV

end
-- ==== Proof.ScatterSum.lean ====
/-
  The accumulating scatter of point rows into segment rows, read at an index.

  Each of 800000 points carries one signed index word; the scatter adds point `p`'s update to the
  segment whose number is that word, and drops the update when the word is no segment number.  So
  a segment ends at its old value plus the sum of the updates of the points whose word is its number.
-/
import Idealize.ShloMosaic.PureOps.Ideal
import Idealize.ShloMosaic.Lib.ValueIdx

noncomputable section

namespace Cert.Voxel

open Idealize.ShloMosaic Idealize.ShloMosaic.ValueIdx

/-- Segment rows: 262144 segments of 64 channels. -/
abbrev SSeg2 : Shape := ⟨2, ![262144, 64]⟩
/-- Segment counts. -/
abbrev SSeg1 : Shape := ⟨1, ![262144]⟩
/-- The points' index words, one per point. -/
abbrev SPtsI : Shape := ⟨2, ![800000, 1]⟩
/-- Point rows: 800000 points of 64 channels. -/
abbrev SPts2 : Shape := ⟨2, ![800000, 64]⟩
/-- One value per point. -/
abbrev SPts1 : Shape := ⟨1, ![800000]⟩

/-! ## Rows: the landing index of one update -/

/-- Update `(p, f')` reads its index word at `(p, 0)`. -/
private theorem rows_siIdx (wf) (p : Fin 800000) (f' : Fin 64) (c) :
    (⟨[1], [0], [0], 1, wf⟩ : ScatterDims SSeg2 SPtsI SPts2).siIdx (ix2 p f') c = ix2 p (0 : Fin 1) := by
  funext b
  match b with
  | ⟨0, _⟩ => rfl
  | ⟨1, _⟩ => exact Subsingleton.elim (α := Fin 1) _ _

/-- On the segment axis the window of update `(p, f')` starts at point `p`'s index word, read signed. -/
private theorem rows_start0 (wf) (p : Fin 800000) (f' : Fin 64) (idx : IVec SPtsI 32) :
    (⟨[1], [0], [0], 1, wf⟩ : ScatterDims SSeg2 SPtsI SPts2).start (ix2 p f') idx 0 = (idx (ix2 p (0 : Fin 1))).toInt := by
  unfold ScatterDims.start
  rw [dif_pos (show (0 : Fin SSeg2.rank) ∈ ([0] : List (Fin SSeg2.rank)) by decide), rows_siIdx]

/-- On the channel axis every window starts at 0. -/
private theorem rows_start1 (wf) (j : SPts2.Idx) (idx : IVec SPtsI 32) :
    (⟨[1], [0], [0], 1, wf⟩ : ScatterDims SSeg2 SPtsI SPts2).start j idx 1 = 0 := by
  unfold ScatterDims.start
  rw [dif_neg (show (1 : Fin SSeg2.rank) ∉ ([0] : List (Fin SSeg2.rank)) by decide)]

/-- The segment axis is an inserted axis: the window coordinate on it is 0. -/
private theorem rows_window0 (wf) (j : SPts2.Idx) :
    (⟨[1], [0], [0], 1, wf⟩ : ScatterDims SSeg2 SPtsI SPts2).window j 0 = 0 := by
  unfold ScatterDims.window
  rw [dif_neg (show (0 : Fin SSeg2.rank) ∉ SSeg2.kept [0] by decide)]

/-- On the channel axis the window coordinate of update `(p, f')` is `f'`. -/
private theorem rows_window1 (wf) (p : Fin 800000) (f' : Fin 64) :
    (⟨[1], [0], [0], 1, wf⟩ : ScatterDims SSeg2 SPtsI SPts2).window (ix2 p f') 1 = f'.val := by
  unfold ScatterDims.window
  rw [dif_pos (show (1 : Fin SSeg2.rank) ∈ SSeg2.kept [0] by decide)]
  rfl

/-- Update `(p, f')` lands on `(s, f)` exactly when point `p`'s index word is `s` and `f' = f`; a word
    outside the segment range lands nowhere. -/
private theorem rows_resultIdx_iff (wf) (p : Fin 800000) (f' : Fin 64) (idx : IVec SPtsI 32) (s : Fin 262144)
    (f : Fin 64) :
    (⟨[1], [0], [0], 1, wf⟩ : ScatterDims SSeg2 SPtsI SPts2).resultIdx? (ix2 p f') idx = some (ix2 s f)
      ↔ ((idx (ix2 p (0 : Fin 1))).toInt = (s.val : Int) ∧ f' = f) := by
  have hf' : f'.val < 64 := f'.isLt
  have hs : s.val < 262144 := s.isLt
  unfold ScatterDims.resultIdx?
  split_ifs with h
  · rw [Option.some.injEq, funext_iff, Fin.forall_fin_two]
    rw [Fin.forall_fin_two] at h
    simp only [Fin.ext_iff]
    rw [rows_start0, rows_start1, rows_window0, rows_window1] at h ⊢
    change (_ ∧ _ < ((262144 : Nat) : Int)) ∧ _ ∧ _ < ((64 : Nat) : Int) at h
    change (_ = s.val ∧ _ = f.val) ↔ _
    omega
  · rw [Fin.forall_fin_two] at h
    rw [rows_start0, rows_start1, rows_window0, rows_window1] at h
    change ¬ ((_ ∧ _ < ((262144 : Nat) : Int)) ∧ _ ∧ _ < ((64 : Nat) : Int)) at h
    simp only [Fin.ext_iff]
    constructor
    · intro h'; cases h'
    · omega

/-- Rows scattered into rows: channel `f` of segment `s` ends at its old value plus channel `f` of every
    point whose index word is `s`. -/
theorem scatterAdd_rows (d : ScatterDims SSeg2 SPtsI SPts2)
    (hu : d.updateWindowDims = [1]) (hi : d.insertedWindowDims = [0])
    (hs : d.scatterDimsToOperandDims = [0]) (hv : d.indexVectorDim = 1)
    (x : SSeg2.Idx → EReal) (idx : IVec SPtsI 32) (upd : SPts2.Idx → EReal) (s : Fin 262144) (f : Fin 64) :
    Ideal.hostScatterAdd d x idx upd (ix2 s f)
      = x (ix2 s f) + ∑ p : Fin 800000, if (idx (ix2 p (0 : Fin 1))).toInt = (s.val : Int) then upd (ix2 p f) else 0 := by
  obtain ⟨uw, iw, sd, iv, wf⟩ := d
  simp only at hu hi hs hv
  subst hu hi hs hv
  unfold Ideal.hostScatterAdd
  refine congrArg (fun t => x (ix2 s f) + t) ?_
  rw [Finset.sum_filter, sum_idx2]
  refine Finset.sum_congr rfl fun p _ => ?_
  refine (Finset.sum_congr rfl fun f' _ => if_congr (rows_resultIdx_iff wf p f' idx s f) rfl rfl).trans ?_
  by_cases hp : (idx (ix2 p (0 : Fin 1))).toInt = (s.val : Int)
  · simp only [hp, true_and, if_true]
    exact (Finset.sum_ite_eq' Finset.univ f (fun f' => upd (ix2 p f'))).trans (if_pos (Finset.mem_univ f))
  · simp only [hp, false_and, if_false, Finset.sum_const_zero]

/-! ## Counts: the landing index of one update -/

/-- A sum over a rank-1 index set is the sum over its one coordinate. -/
private theorem sum_ix1 {M : Type*} [AddCommMonoid M] {n : Nat} (g : (⟨1, ![n]⟩ : Shape).Idx → M) :
    ∑ i, g i = ∑ a : Fin n, g (ix1 a) :=
  Fintype.sum_equiv ⟨fun i => i 0, ix1, fun i => (eq_ix1 i).symm, fun _ => rfl⟩ g (fun a => g (ix1 a))
    (fun i => congrArg g (eq_ix1 i))

/-- Update `p` reads its index word at `(p, 0)`. -/
private theorem vec_siIdx (wf) (p : Fin 800000) (c) :
    (⟨[], [0], [0], 1, wf⟩ : ScatterDims SSeg1 SPtsI SPts1).siIdx (ix1 p) c = ix2 p (0 : Fin 1) := by
  funext b
  match b with
  | ⟨0, _⟩ => rfl
  | ⟨1, _⟩ => exact Subsingleton.elim (α := Fin 1) _ _

/-- The window of update `p` starts at point `p`'s index word, read signed. -/
private theorem vec_start0 (wf) (p : Fin 800000) (idx : IVec SPtsI 32) :
    (⟨[], [0], [0], 1, wf⟩ : ScatterDims SSeg1 SPtsI SPts1).start (ix1 p) idx 0 = (idx (ix2 p (0 : Fin 1))).toInt := by
  unfold ScatterDims.start
  rw [dif_pos (show (0 : Fin SSeg1.rank) ∈ ([0] : List (Fin SSeg1.rank)) by decide), vec_siIdx]

/-- The one operand axis is an inserted axis: the window coordinate on it is 0. -/
private theorem vec_window0 (wf) (j : SPts1.Idx) :
    (⟨[], [0], [0], 1, wf⟩ : ScatterDims SSeg1 SPtsI SPts1).window j 0 = 0 := by
  unfold ScatterDims.window
  rw [dif_neg (show (0 : Fin SSeg1.rank) ∉ SSeg1.kept [0] by decide)]

/-- Update `p` lands on segment `s` exactly when point `p`'s index word is `s`; a word outside the segment
    range lands nowhere. -/
private theorem vec_resultIdx_iff (wf) (p : Fin 800000) (idx : IVec SPtsI 32) (s : Fin 262144) :
    (⟨[], [0], [0], 1, wf⟩ : ScatterDims SSeg1 SPtsI SPts1).resultIdx? (ix1 p) idx = some (ix1 s)
      ↔ (idx (ix2 p (0 : Fin 1))).toInt = (s.val : Int) := by
  have hs : s.val < 262144 := s.isLt
  unfold ScatterDims.resultIdx?
  split_ifs with h
  · rw [Option.some.injEq, funext_iff, Fin.forall_fin_one]
    rw [Fin.forall_fin_one] at h
    simp only [Fin.ext_iff]
    rw [vec_start0, vec_window0] at h ⊢
    change _ ∧ _ < ((262144 : Nat) : Int) at h
    change _ = s.val ↔ _
    omega
  · rw [Fin.forall_fin_one] at h
    rw [vec_start0, vec_window0] at h
    change ¬ (_ ∧ _ < ((262144 : Nat) : Int)) at h
    constructor
    · intro h'; cases h'
    · omega

/-- Values scattered into counts: segment `s` ends at its old value plus the value of every point whose
    index word is `s`. -/
theorem scatterAdd_vec (d : ScatterDims SSeg1 SPtsI SPts1)
    (hu : d.updateWindowDims = []) (hi : d.insertedWindowDims = [0])
    (hs : d.scatterDimsToOperandDims = [0]) (hv : d.indexVectorDim = 1)
    (x : SSeg1.Idx → EReal) (idx : IVec SPtsI 32) (upd : SPts1.Idx → EReal) (s : Fin 262144) :
    Ideal.hostScatterAdd d x idx upd (ix1 s)
      = x (ix1 s) + ∑ p : Fin 800000, if (idx (ix2 p (0 : Fin 1))).toInt = (s.val : Int) then upd (ix1 p) else 0 := by
  obtain ⟨uw, iw, sd, iv, wf⟩ := d
  simp only at hu hi hs hv
  subst hu hi hs hv
  unfold Ideal.hostScatterAdd
  refine congrArg (fun t => x (ix1 s) + t) ?_
  rw [Finset.sum_filter, sum_ix1]
  exact Finset.sum_congr rfl fun p _ => if_congr (vec_resultIdx_iff wf p idx s) rfl rfl

end Cert.Voxel

end
-- ==== Proof.RefIndexRange.lean ====
/-
  Every point's voxel word is a voxel number.

  The host program clips each scaled coordinate to the interval [0, 31], rounds it to the nearest
  integer (ties to even) and converts that integer to a 32-bit word; so each of a point's three
  coordinate words is one of 0, …, 31, and the flattened word `(x * 32 + y) * 32 + z`, computed in
  32-bit arithmetic without wrapping, is below 32 * 32 * 32 = 32768.  This holds for every extended-real
  input: the clip's minimum and maximum bring any value, infinite ones included, into [0, 31].
-/
import proofs.«151645_j89756226552188_1_alg».proof.Proof.Gen.ReferenceIdeal.Read
import Idealize.ShloMosaic.PureOps.Ideal
import Idealize.ShloMosaic.Lib.ValueIdx

set_option maxRecDepth 16384

noncomputable section

namespace Cert.ReferenceIdeal.Range

open Idealize.ShloMosaic Idealize.ShloMosaic.TcCoe Idealize.ShloMosaic.ValueIdx
open Cert.ReferenceIdeal Cert.ReferenceIdeal.Read

/-! ## The clip, on the extended reals -/

/-- Clipping any extended real to [0, 31] gives a real number in [0, 31]: the value lies between the
    two finite ends, so it is neither infinity. -/
theorem clip_real (y : EReal) :
    ∃ r : ℝ, 0 ≤ r ∧ r ≤ 31 ∧ min ((31 : ℝ) : EReal) (max (0 : EReal) y) = (r : EReal) := by
  have h31 : (0 : EReal) ≤ ((31 : ℝ) : EReal) := by exact_mod_cast (by norm_num : (0 : ℝ) ≤ 31)
  have h0 : (0 : EReal) ≤ min ((31 : ℝ) : EReal) (max (0 : EReal) y) := le_min h31 (le_max_left _ _)
  have h1 : min ((31 : ℝ) : EReal) (max (0 : EReal) y) ≤ ((31 : ℝ) : EReal) := min_le_left _ _
  generalize min ((31 : ℝ) : EReal) (max (0 : EReal) y) = c at h0 h1
  induction c using EReal.rec with
  | bot => exact absurd h0 (by simp)
  | top => exact absurd h1 (by simp)
  | coe r => exact ⟨r, by exact_mod_cast h0, by exact_mod_cast h1, rfl⟩

/-! ## Rounding to the nearest integer, ties to even -/

/-- A real in [0, 31] rounds (ties to even) to an integer in [0, 31]: the result is the floor or the
    floor plus one, and it is the latter only when the real is at least half above its floor, which
    keeps the floor at most 30. -/
theorem roundHalfEven_mem {r : ℝ} (h0 : 0 ≤ r) (h1 : r ≤ 31) :
    0 ≤ Ideal.roundHalfEven r ∧ Ideal.roundHalfEven r ≤ 31 := by
  have hf0 : 0 ≤ ⌊r⌋ := Int.floor_nonneg.mpr h0
  have hfr : (⌊r⌋ : ℝ) ≤ r := Int.floor_le r
  have hf31 : ⌊r⌋ ≤ 31 := by
    have : (⌊r⌋ : ℝ) ≤ ((31 : ℤ) : ℝ) := by push_cast; exact hfr.trans h1
    exact_mod_cast this
  have up : ¬ (r - (⌊r⌋ : ℝ) < 1 / 2) → ⌊r⌋ + 1 ≤ 31 := by
    intro h
    have h2 : (⌊r⌋ : ℝ) < ((31 : ℤ) : ℝ) := by push_cast; linarith [not_lt.mp h]
    have : ⌊r⌋ < 31 := by exact_mod_cast h2
    omega
  unfold Ideal.roundHalfEven
  simp only []
  split_ifs with ha hb hc
  · exact ⟨hf0, hf31⟩
  · exact ⟨by omega, up ha⟩
  · exact ⟨hf0, hf31⟩
  · exact ⟨by omega, up ha⟩

/-! ## The conversion to a 32-bit word -/

/-- The signed conversion of an integer-valued real in [0, 31] is that integer as a word, and its
    unsigned reading is at most 31. -/
theorem fptosi_int_le {k : ℤ} (h0 : 0 ≤ k) (h1 : k ≤ 31) :
    (Ideal.fptosi 32 (((k : ℝ)) : EReal)).toNat ≤ 31 := by
  have hk : Ideal.toIntClamped (-((2 ^ (32 - 1) : Nat) : ℤ)) (((2 ^ (32 - 1) : Nat) : ℤ) - 1) (((k : ℝ)) : EReal) = k := by
    rw [Ideal.toIntClamped_coe, if_pos (by exact_mod_cast h0), Int.floor_intCast]
    norm_num
    omega
  rw [Ideal.fptosi, hk, BitVec.toNat_ofInt]
  omega

/-- One coordinate word: clip to [0, 31], round ties-to-even, convert; at most 31 for every extended
    real, the infinite ones included. -/
theorem coord_word_le (y : EReal) :
    (Ideal.fptosi 32 (Ideal.liftRound Ideal.roundHalfEven
      (min ((31 : ℝ) : EReal) (max (0 : EReal) y)))).toNat ≤ 31 := by
  obtain ⟨r, h0, h1, hr⟩ := clip_real y
  rw [hr, Ideal.liftRound_coe]
  exact fptosi_int_le (roundHalfEven_mem h0 h1).1 (roundHalfEven_mem h0 h1).2

/-! ## The flattened word -/

/-- Three words, each at most 31, flatten without wrapping to a word below 32768. -/
theorem flat_lt {x y z : BitVec 32} (hx : x.toNat ≤ 31) (hy : y.toNat ≤ 31) (hz : z.toNat ≤ 31) :
    ((x * 32#32 + y) * 32#32 + z).toNat < 32768 := by
  simp only [BitVec.toNat_add, BitVec.toNat_mul, BitVec.toNat_ofNat, Nat.reducePow, Nat.reduceMod]
  omega

/-! ## Through the program -/

/-- The word 31 read as a signed integer is 31, and the all-zero single-precision pattern is 0. -/
theorem hi_eq : FloatOps.sitofp (F := Ideal) .f32 (31#32 : BitVec 32) = ((31 : ℝ) : EReal) := by
  show (((31#32 : BitVec 32).toInt : ℝ) : EReal) = ((31 : ℝ) : EReal)
  have : (31#32 : BitVec 32).toInt = 31 := by decide
  rw [this]; norm_num

/-- Every word of the converted coordinates array is at most 31. -/
theorem v21_le (x1 : (⟨S8x3x100000, .f32⟩ : BufTy).Contents (Elt Ideal)) (j : S8x3x100000.Idx) :
    ((val_main_v21 (F := Ideal) x1 : S8x3x100000.Idx → BitVec 32) j).toNat ≤ 31 := by
  rw [val_main_v21_apply, val_main_v20_apply, val_main_v19_apply, val_main_call1_v4_apply,
    val_main_call1_v3_apply, val_main_c_apply, val_main_call1_v2_apply, val_main_call1_v1_apply,
    val_main_call1_v0_apply, val_main_cst_6_apply, hi_eq, Ideal.ofBits_def, Ideal.ofBits_zero_f32,
    Ideal.hostUnary_roundeven_def, Ideal.maximumf_def, Ideal.minimumf_def]
  exact coord_word_le _

/-- The flattened voxel word of point `n` of cloud `b` is below 32768. -/
theorem word_lt (x1 : (⟨S8x3x100000, .f32⟩ : BufTy).Contents (Elt Ideal)) (b : Fin 8) (n : Fin 100000) :
    ((val_main_v33 (F := Ideal) x1 : S8x100000.Idx → BitVec 32) (ix2 b n)).toNat < 32768 := by
  rw [val_main_v33_apply, val_main_v30_apply, val_main_v29_apply, val_main_c_8_apply,
    val_main_v28_apply, val_main_v25_apply, val_main_v24_apply, val_main_c_7_apply,
    val_main_v23_apply, val_main_v22_apply, val_main_v27_apply, val_main_v26_apply,
    val_main_v32_apply, val_main_v31_apply]
  exact flat_lt (v21_le x1 _) (v21_le x1 _) (v21_le x1 _)

end Cert.ReferenceIdeal.Range

end
-- ==== Proof.RefValue.lean ====
/-
  The reference's first result is the grid of voxel averages.

  The reference offsets cloud `b`'s voxel words by `b * 32768`, lists all 8 * 100000 points in one row,
  scatter-adds the feature rows, and a row of ones, into 8 * 32768 segments, divides sums by counts clamped
  below by one, and lays segment `b * 32768 + v` out at cloud `b`, voxel `v`.  Because every voxel word is
  below 32768, a point of cloud `b'` lands in segment `b * 32768 + v` exactly when `b' = b` and its word is
  `v`; so the segment's sum is cloud `b`'s one-hot sum for `v`, the count likewise.
-/
import proofs.«151645_j89756226552188_1_alg».proof.Proof.Gen.ReferenceIdeal.Read
import proofs.«151645_j89756226552188_1_alg».proof.Proof.VoxelSpec
import proofs.«151645_j89756226552188_1_alg».proof.Proof.VoxelSums
import proofs.«151645_j89756226552188_1_alg».proof.Proof.ScatterSum
import proofs.«151645_j89756226552188_1_alg».proof.Proof.RefIndexRange
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.ReferenceIdeal.RefValue

open Idealize.ShloMosaic Idealize.ShloMosaic.TcCoe Idealize.ShloMosaic.ValueIdx
open Cert.ReferenceIdeal Cert.ReferenceIdeal.Read

/-! ## Segments, clouds and points -/

/-- The segment of cloud `b`, voxel `(x, y, z)`: the voxel's row-major place among the 8 * 32 * 32 * 32. -/
def seg (b : Fin 8) (x y z : Fin 32) : Fin 262144 :=
  ⟨((b.val * 32 + x.val) * 32 + y.val) * 32 + z.val, by
    have := b.isLt; have := x.isLt; have := y.isLt; have := z.isLt; omega⟩

/-- The segment is the cloud's offset `b * 32768` plus the voxel's flattened word. -/
theorem seg_val (b : Fin 8) (x y z : Fin 32) :
    (seg b x y z).val = b.val * 32768 + ((x.val * 32 + y.val) * 32 + z.val) := by
  show ((b.val * 32 + x.val) * 32 + y.val) * 32 + z.val = _
  omega

/-- The cloud of point `p` of the flat list. -/
def cl (p : Fin 800000) : Fin 8 := ⟨p.val / 100000, by have := p.isLt; omega⟩

/-- The place of point `p` of the flat list inside its cloud. -/
def pt (p : Fin 800000) : Fin 100000 := ⟨p.val % 100000, Nat.mod_lt _ (by norm_num)⟩

/-! ## Where the result reads the divided rows -/

/-- The result at cloud `b`, channel `f`, voxel `(x, y, z)` reads channel `f` of the voxel's segment:
    `(s * 64 + f) / 64 = s` and `(s * 64 + f) % 64 = f`. -/
theorem idx_out (b : Fin 8) (f : Fin 64) (x y z : Fin 32) :
    idx_main_v55 (idx_main_v56 (ix5 b f x y z)) = ix2 (seg b x y z) f := by
  funext a
  refine Fin.ext ?_
  have hf := f.isLt
  match a with
  | ⟨0, _⟩ =>
    show ((((b.val * 32 + x.val) * 32 + y.val) * 32 + z.val) * 64 + f.val) / 64
      = ((b.val * 32 + x.val) * 32 + y.val) * 32 + z.val
    omega
  | ⟨1, _⟩ =>
    show ((((b.val * 32 + x.val) * 32 + y.val) * 32 + z.val) * 64 + f.val) % 64 = f.val
    omega

/-! ## The scattered rows, words and ones, point by point -/

/-- The index word of point `p`: its voxel word plus its cloud's offset, `cloud * 32768`, as 32-bit words. -/
theorem idx_word (x1 : (⟨S8x3x100000, .f32⟩ : BufTy).Contents (Elt Ideal)) (p : Fin 800000) :
    (val_main_v44 (F := Ideal) x1 : S800000x1.Idx → BitVec 32) (ix2 p (0 : Fin 1))
      = (val_main_v33 (F := Ideal) x1 : S8x100000.Idx → BitVec 32) (ix2 (cl p) (pt p))
          + BitVec.ofNat 32 (cl p).val * 32768#32 := by
  have h1 : idx_main_v40 (idx_main_v44 (ix2 p (0 : Fin 1))) = ix2 (cl p) (pt p) := by
    funext a
    refine Fin.ext ?_
    match a with
    | ⟨0, _⟩ => rfl
    | ⟨1, _⟩ => rfl
  rw [val_main_v44_apply, val_main_v40_apply, val_main_v39_apply, val_main_v38_apply, val_main_v37_apply,
    val_main_v35_apply, val_main_v34_apply, val_main_v36_apply, val_main_c_9_apply, h1]
  rfl

/-- The counts scatter reads the same index words. -/
theorem idx_word' (x1 : (⟨S8x3x100000, .f32⟩ : BufTy).Contents (Elt Ideal)) (p : Fin 800000) :
    (val_main_v48 (F := Ideal) x1 : S800000x1.Idx → BitVec 32) (ix2 p (0 : Fin 1))
      = (val_main_v33 (F := Ideal) x1 : S8x100000.Idx → BitVec 32) (ix2 (cl p) (pt p))
          + BitVec.ofNat 32 (cl p).val * 32768#32 := by
  have h1 : idx_main_v40 (idx_main_v48 (ix2 p (0 : Fin 1))) = ix2 (cl p) (pt p) := by
    funext a
    refine Fin.ext ?_
    match a with
    | ⟨0, _⟩ => rfl
    | ⟨1, _⟩ => rfl
  rw [val_main_v48_apply, val_main_v40_apply, val_main_v39_apply, val_main_v38_apply, val_main_v37_apply,
    val_main_v35_apply, val_main_v34_apply, val_main_v36_apply, val_main_c_9_apply, h1]
  rfl

/-- The row of point `p`: channel `f` is the feature of its cloud, that channel, its place in the cloud. -/
theorem upd_row (x0 : (⟨S8x64x100000, .f32⟩ : BufTy).Contents (Elt Ideal)) (p : Fin 800000) (f : Fin 64) :
    (val_main_v42 (F := Ideal) x0 : S800000x64.Idx → EReal) (ix2 p f) = x0 (ix3 (cl p) f (pt p)) := by
  have hp := p.isLt
  have hf := f.isLt
  have h1 : idx_main_v41 (idx_main_v42 (ix2 p f)) = ix3 (cl p) f (pt p) := by
    funext a
    refine Fin.ext ?_
    match a with
    | ⟨0, _⟩ => show (p.val * 64 + f.val) / 6400000 = p.val / 100000; omega
    | ⟨1, _⟩ => show (p.val * 64 + f.val) % 64 = f.val; omega
    | ⟨2, _⟩ => show (p.val * 64 + f.val) / 64 % 100000 = p.val % 100000; omega
  rw [val_main_v42_apply, val_main_v41_apply, h1]

/-- Every point's count update is one. -/
theorem upd_one (p : Fin 800000) :
    (val_main_v46 (F := Ideal) : S800000.Idx → EReal) (ix1 p) = 1 := by
  rw [val_main_v46_apply, val_main_cst_11_apply, Ideal.ofBits_def, Ideal.ofBits_one_f32]

/-! ## The offset words do not wrap -/

/-- A voxel word below 32768 plus a cloud's offset, read signed, is the plain sum: it stays below 2 ^ 31. -/
theorem word_toInt (w : BitVec 32) (hw : w.toNat < 32768) (b' : Fin 8) :
    (w + BitVec.ofNat 32 b'.val * 32768#32).toInt = ((w.toNat + b'.val * 32768 : Nat) : Int) := by
  have hb := b'.isLt
  have hn : (w + BitVec.ofNat 32 b'.val * 32768#32).toNat = w.toNat + b'.val * 32768 := by
    simp only [BitVec.toNat_add, BitVec.toNat_mul, BitVec.toNat_ofNat, Nat.reducePow]
    omega
  rw [BitVec.toInt_eq_toNat_of_lt (by rw [hn]; omega), hn]

/-- So a point of cloud `b'` with voxel word `w` has segment `seg b x y z` exactly when `b' = b` and `w` is
    the voxel's word: both sides split uniquely into a multiple of 32768 and a rest below it. -/
theorem word_seg (w : BitVec 32) (hw : w.toNat < 32768) (b' b : Fin 8) (x y z : Fin 32) :
    (w + BitVec.ofNat 32 b'.val * 32768#32).toInt = ((seg b x y z).val : Int)
      ↔ b' = b ∧ w = Cert.Voxel.vword x y z := by
  rw [word_toInt w hw b', seg_val]
  have hb := b.isLt
  have hb' := b'.isLt
  have hx := x.isLt
  have hy := y.isLt
  have hz := z.isLt
  unfold Cert.Voxel.vword
  constructor
  · intro h
    have h' : w.toNat + b'.val * 32768 = b.val * 32768 + ((x.val * 32 + y.val) * 32 + z.val) := by
      exact_mod_cast h
    refine ⟨Fin.ext (by omega), BitVec.eq_of_toNat_eq ?_⟩
    rw [BitVec.toNat_ofNat]
    omega
  · rintro ⟨rfl, rfl⟩
    rw [BitVec.toNat_ofNat]
    have h' : ((x.val * 32 + y.val) * 32 + z.val) % 2 ^ 32 + b'.val * 32768
        = b'.val * 32768 + ((x.val * 32 + y.val) * 32 + z.val) := by omega
    exact_mod_cast h'

/-! ## The two scatters at a segment -/

/-- The host's accumulating float scatter, at the ideal values, is the exact accumulating scatter; stated over
    arbitrary shapes. -/
theorem scatterAdd_ideal {s si u : Shape} {w : Nat} {φ : FTy} (d : ScatterDims s si u) (x : FVec Ideal s φ)
    (idx : IVec si w) (upd : FVec Ideal u φ) :
    Host.scatterAdd (F := Ideal) d x idx upd = Ideal.hostScatterAdd d x idx upd :=
  Ideal.hostScatterAdd_def d .single x idx upd

/-- A sum over the flat list of points is the double sum over clouds and places. -/
theorem sum_points (g : Fin 8 → Fin 100000 → EReal) :
    (∑ p : Fin 800000, g (cl p) (pt p)) = ∑ b' : Fin 8, ∑ n : Fin 100000, g b' n :=
  Cert.Voxel.sum_flat g

/-- The test "point `n` of cloud `b'` lands in the segment of cloud `b`, voxel `(x, y, z)`". -/
def lands (x1 : (⟨S8x3x100000, .f32⟩ : BufTy).Contents (Elt Ideal)) (b : Fin 8) (x y z : Fin 32)
    (b' : Fin 8) (n : Fin 100000) : Prop :=
  ((val_main_v33 (F := Ideal) x1 : S8x100000.Idx → BitVec 32) (ix2 b' n)
      + BitVec.ofNat 32 b'.val * 32768#32).toInt = ((seg b x y z).val : Int)

instance (x1 : (⟨S8x3x100000, .f32⟩ : BufTy).Contents (Elt Ideal)) (b : Fin 8) (x y z : Fin 32)
    (b' : Fin 8) (n : Fin 100000) : Decidable (lands x1 b x y z b' n) := by
  unfold lands; infer_instance

/-- A point lands there exactly when it is of cloud `b` and its word is the voxel's. -/
theorem lands_iff (x1 : (⟨S8x3x100000, .f32⟩ : BufTy).Contents (Elt Ideal)) (b : Fin 8) (x y z : Fin 32)
    (b' : Fin 8) (n : Fin 100000) :
    lands x1 b x y z b' n
      ↔ b' = b ∧ (val_main_v33 (F := Ideal) x1 : S8x100000.Idx → BitVec 32) (ix2 b' n) = Cert.Voxel.vword x y z :=
  word_seg _ (Cert.ReferenceIdeal.Range.word_lt x1 b' n) b' b x y z

/-- The test at point `p` of the flat list, as the scatter states it. -/
theorem lands_flat (x1 : (⟨S8x3x100000, .f32⟩ : BufTy).Contents (Elt Ideal)) (b : Fin 8) (x y z : Fin 32)
    (p : Fin 800000) :
    ((val_main_v44 (F := Ideal) x1 : S800000x1.Idx → BitVec 32) (ix2 p (0 : Fin 1))).toInt = ((seg b x y z).val : Int)
      ↔ lands x1 b x y z (cl p) (pt p) := by
  rw [idx_word]; exact Iff.rfl

/-- The same test as the counts scatter states it. -/
theorem lands_flat' (x1 : (⟨S8x3x100000, .f32⟩ : BufTy).Contents (Elt Ideal)) (b : Fin 8) (x y z : Fin 32)
    (p : Fin 800000) :
    ((val_main_v48 (F := Ideal) x1 : S800000x1.Idx → BitVec 32) (ix2 p (0 : Fin 1))).toInt = ((seg b x y z).val : Int)
      ↔ lands x1 b x y z (cl p) (pt p) := by
  rw [idx_word']; exact Iff.rfl

/-- One-hot sums over all points under that test are cloud `b`'s one-hot sums for the voxel's word. -/
theorem sum_lands (x1 : (⟨S8x3x100000, .f32⟩ : BufTy).Contents (Elt Ideal)) (b : Fin 8) (x y z : Fin 32)
    (g : Fin 8 → Fin 100000 → EReal) :
    (∑ p : Fin 800000, if lands x1 b x y z (cl p) (pt p) then g (cl p) (pt p) else 0)
      = ∑ n : Fin 100000,
          if (val_main_v33 (F := Ideal) x1 : S8x100000.Idx → BitVec 32) (ix2 b n) = Cert.Voxel.vword x y z
            then g b n else 0 := by
  rw [sum_points (fun b' n => if lands x1 b x y z b' n then g b' n else 0),
    Cert.Voxel.sum_one_cloud b (lands x1 b x y z) g (fun b' n h => ((lands_iff x1 b x y z b' n).mp h).1)]
  refine Finset.sum_congr rfl fun n _ => ?_
  refine if_congr ?_ rfl rfl
  rw [lands_iff]
  exact ⟨fun h => h.2, fun h => ⟨rfl, h⟩⟩

/-- Channel `f` of the summed rows at the segment of cloud `b`, voxel `(x, y, z)`: the one-hot sum of that
    channel over cloud `b`'s points whose word is the voxel's. -/
theorem rows_eq (x0 : (⟨S8x64x100000, .f32⟩ : BufTy).Contents (Elt Ideal))
    (x1 : (⟨S8x3x100000, .f32⟩ : BufTy).Contents (Elt Ideal)) (b : Fin 8) (f : Fin 64) (x y z : Fin 32) :
    (val_main_v45 (F := Ideal) x0 x1 : S262144x64.Idx → EReal) (ix2 (seg b x y z) f)
      = Cert.Voxel.vsum (val_main_v33 (F := Ideal) x1) x0 b (Cert.Voxel.vword x y z) f := by
  have h := Cert.Voxel.scatterAdd_rows scatter_S262144x64_S800000x1_S800000x64_1_0_0_1 rfl rfl rfl rfl
    (val_main_v43 (F := Ideal)) (val_main_v44 (F := Ideal) x1) (val_main_v42 (F := Ideal) x0) (seg b x y z) f
  unfold val_main_v45
  rw [scatterAdd_ideal, h, val_main_v43_apply, val_main_cst_10_apply, Ideal.ofBits_def,
    Ideal.ofBits_zero_f32, zero_add]
  with_reducible refine (Finset.sum_congr rfl fun p _ =>
    if_congr (lands_flat x1 b x y z p) (upd_row x0 p f) rfl).trans ?_
  unfold Cert.Voxel.vsum
  with_reducible exact sum_lands x1 b x y z (fun b' n => x0 (ix3 b' f n))

/-- The count at the segment of cloud `b`, voxel `(x, y, z)`: the number of cloud `b`'s points whose word is
    the voxel's. -/
theorem cnt_eq (x1 : (⟨S8x3x100000, .f32⟩ : BufTy).Contents (Elt Ideal)) (b : Fin 8) (x y z : Fin 32) :
    (val_main_v49 (F := Ideal) x1 : S262144.Idx → EReal) (ix1 (seg b x y z))
      = Cert.Voxel.vcnt (val_main_v33 (F := Ideal) x1) b (Cert.Voxel.vword x y z) := by
  have h := Cert.Voxel.scatterAdd_vec scatter_S262144_S800000x1_S800000_n_0_0_1 rfl rfl rfl rfl
    (val_main_v47 (F := Ideal)) (val_main_v48 (F := Ideal) x1) (val_main_v46 (F := Ideal)) (seg b x y z)
  unfold val_main_v49
  rw [scatterAdd_ideal, h, val_main_v47_apply, val_main_cst_12_apply, Ideal.ofBits_def,
    Ideal.ofBits_zero_f32, zero_add]
  with_reducible refine (Finset.sum_congr rfl fun p _ =>
    if_congr (lands_flat' x1 b x y z p) (upd_one p) rfl).trans ?_
  unfold Cert.Voxel.vcnt
  with_reducible exact sum_lands x1 b x y z (fun _ _ => (1 : EReal))

/-- The divisor at channel `f` of that segment: the count, replaced by one where it is smaller. -/
theorem den_eq (x1 : (⟨S8x3x100000, .f32⟩ : BufTy).Contents (Elt Ideal)) (b : Fin 8) (f : Fin 64) (x y z : Fin 32) :
    (val_main_v53 (F := Ideal) x1 : S262144x64.Idx → EReal) (ix2 (seg b x y z) f)
      = max (Cert.Voxel.vcnt (val_main_v33 (F := Ideal) x1) b (Cert.Voxel.vword x y z)) 1 := by
  have hi : idx_main_v52 (idx_main_v53 (ix2 (seg b x y z) f)) = ix1 (seg b x y z) := by
    funext a
    match a with
    | ⟨0, _⟩ => rfl
  rw [val_main_v53_apply, val_main_v52_apply, val_main_v51_apply, val_main_v50_apply, val_main_cst_13_apply,
    Ideal.maximumf_def, Ideal.ofBits_def, Ideal.ofBits_one_f32, hi, cnt_eq]

/-! ## The result -/

/-- The reference's first result, as a function of its two arguments, is the grid of voxel averages of the
    features under the voxel words the host computes from the coordinates. -/
theorem ref_grid (x0 : (⟨S8x64x100000, .f32⟩ : BufTy).Contents (Elt Ideal)) (x1 : (⟨S8x3x100000, .f32⟩ : BufTy).Contents (Elt Ideal)) :
    (val_main_v56 (F := Ideal) x0 x1 : S8x64x32x32x32.Idx → EReal)
      = Cert.Voxel.grid (val_main_v33 (F := Ideal) x1) x0 := by
  funext i
  obtain ⟨b, f, x, y, z, rfl⟩ : ∃ (b : Fin 8) (f : Fin 64) (x y z : Fin 32), i = ix5 b f x y z :=
    ⟨i 0, i 1, i 2, i 3, i 4, eq_ix5 i⟩
  rw [val_main_v56_apply, val_main_v55_apply, val_main_v54_apply, idx_out, Ideal.hostDivf_def, rows_eq, den_eq]
  unfold Cert.Voxel.grid Cert.Voxel.vavg
  rfl

end Cert.ReferenceIdeal.RefValue

end
-- ==== Proof.lean ====
/-
  Voxel averaging of a batch of point clouds: a Pallas kernel that turns the scatter into a dense one-hot
  matrix product, against the reference's segment sums.

  Both programs compute from the coordinates, by the same host operations, one voxel word per point
  (each coordinate centred, scaled, clipped to [0, 31], rounded and converted; the three flattened to
  `(x * 32 + y) * 32 + z`) and return the normalised coordinates as second result.  The first result holds,
  for every cloud, channel and voxel, the average of the channel over the cloud's points in that voxel, an
  empty voxel dividing by one (`Cert.Voxel.grid`).

  The kernel reaches it block by block: for each cloud and each tile of 2048 voxels it compares 4096 point
  words at a time with the tile's words and multiplies the zero-one matrix with the block's features and a
  row of ones, accumulating channel sums and counts over the 25 blocks of the padded cloud; padding slots
  carry a word that is no voxel's.  Over the extended reals a zero-one factor times any value is the value
  or zero, and finite sums may be regrouped freely, so the accumulated sums are the cloud's one-hot sums
  (`Cert.KernelIdeal.KV.run`).

  The reference offsets the words by the cloud's number times 32768 and scatter-adds all 800000 points
  into 8 * 32768 segments.  Every word is below 32768, so a point lands in its own cloud's segment of its
  own voxel, and the segment sums are the same one-hot sums (`Cert.ReferenceIdeal.RefValue.ref_grid`).
  No finiteness of the inputs is used.
-/
import proofs.«151645_j89756226552188_1_alg».proof.Defs
import proofs.«151645_j89756226552188_1_alg».proof.Proof.Gen.Kernel
import proofs.«151645_j89756226552188_1_alg».proof.Proof.Gen.Kernel.Skeleton
import proofs.«151645_j89756226552188_1_alg».proof.Proof.Gen.Kernel.Launch
import proofs.«151645_j89756226552188_1_alg».proof.Proof.Gen.Kernel.Points
import proofs.«151645_j89756226552188_1_alg».proof.Proof.Gen.Kernel.Frame
import proofs.«151645_j89756226552188_1_alg».proof.Proof.Gen.KernelIdeal
import proofs.«151645_j89756226552188_1_alg».proof.Proof.Gen.KernelIdeal.Skeleton
import proofs.«151645_j89756226552188_1_alg».proof.Proof.Gen.KernelIdeal.Launch
import proofs.«151645_j89756226552188_1_alg».proof.Proof.Gen.KernelIdeal.Points
import proofs.«151645_j89756226552188_1_alg».proof.Proof.Gen.KernelIdeal.Frame
import proofs.«151645_j89756226552188_1_alg».proof.Proof.Gen.ReferenceIdeal
import proofs.«151645_j89756226552188_1_alg».proof.Proof.Gen.Pre_finite_inputs
import proofs.«151645_j89756226552188_1_alg».proof.Proof.Gen.ReferenceIdeal.Run
import proofs.«151645_j89756226552188_1_alg».proof.Proof.Gen.ReferenceIdeal.Read
import proofs.«151645_j89756226552188_1_alg».proof.Proof.KernelValue
import proofs.«151645_j89756226552188_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the two arguments both programs end with the grid of voxel averages of the features
    under the voxel words of the coordinates, and with the normalised coordinates. -/
theorem algebraic : Cert.algebraic_KernelIdeal_ReferenceIdeal := by
  intro m ρ m' ρ' _ hagree
  refine ⟨fun c => Cert.Voxel.grid (Cert.KernelIdeal.KV.words m c) (Cert.KernelIdeal.KV.feat m c),
    fun c => Cert.KernelIdeal.HostSide.ncK (m ((c.tc : Thread Cert.KernelIdeal.nD Cert.KernelIdeal.τ).loc Cert.KernelIdeal.main_arg1)),
    Cert.KernelIdeal.KV.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v56_eq, Cert.ReferenceIdeal.RefValue.ref_grid, (hagree c).1, (hagree c).2]
  · rw [(h c).2.1, Cert.ReferenceIdeal.Read.val_main_v19_eq, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
